-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1024x1 : Shape := ⟨2, ![1024, 1]⟩
abbrev S1024x5 : Shape := ⟨2, ![1024, 5]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1024x1 : S_.BroadcastsInDim S1024x1 (![] : Fin 0 → Fin S1024x1.rank)
  reducesTo_S1024x1_S_d0_1 : S1024x1.ReducesTo [0, 1] S_
  bcast_S_S1024x5 : S_.BroadcastsInDim S1024x5 (![] : Fin 0 → Fin S1024x5.rank)
  reducesTo_S1024x5_S_d0_1 : S1024x5.ReducesTo [0, 1] S_

variable [Facts]

def fn_part1 {F : FTy → Type} [FloatOps F] (main_arg4 : IVec S1024x5 32) (main_v12 : IVec S_ 1) (main_v15 : IVec S_ 1) : IVec S_ 1 :=
  let main_v16 : IVec S_ 1 := andi main_v12 main_v15
  let main_c_6 : IVec S_ 32 := constantI S_ 32 0#32
  let main_v17 : IVec S1024x5 32 := broadcastInDim S1024x5 ![] bcast_S_S1024x5 main_c_6
  let main_v18 : IVec S1024x5 1 := cmpi .sge main_arg4 main_v17
  let main_c_7 : IVec S_ 1 := constantI S_ 1 1#1
  let main_v19 : IVec S_ 1 := (fun x v => Host.reduce IntOp.andi x v reducesTo_S1024x5_S_d0_1 h_S_) main_v18 main_c_7
  let main_v20 : IVec S_ 1 := andi main_v16 main_v19
  main_v20

def fn {F : FTy → Type} [FloatOps F] (main_arg0 : FVec F S100000x128 .f32) (main_arg1 : FVec F S100000x128 .f32) (main_arg2 : IVec S1024x1 32) (main_arg3 : IVec S1024x5 32) (main_arg4 : IVec S1024x5 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_c_2 : IVec S_ 32 := constantI S_ 32 0#32
  let main_v9 : IVec S1024x1 32 := broadcastInDim S1024x1 ![] bcast_S_S1024x1 main_c_2
  let main_v10 : IVec S1024x1 1 := cmpi .sge main_arg2 main_v9
  let main_c_3 : IVec S_ 1 := constantI S_ 1 1#1
  let main_v11 : IVec S_ 1 := (fun x v => Host.reduce IntOp.andi x v reducesTo_S1024x1_S_d0_1 h_S_) main_v10 main_c_3
  let main_v12 : IVec S_ 1 := andi main_v8 main_v11
  let main_c_4 : IVec S_ 32 := constantI S_ 32 0#32
  let main_v13 : IVec S1024x5 32 := broadcastInDim S1024x5 ![] bcast_S_S1024x5 main_c_4
  let main_v14 : IVec S1024x5 1 := cmpi .sge main_arg3 main_v13
  let main_c_5 : IVec S_ 1 := constantI S_ 1 1#1
  let main_v15 : IVec S_ 1 := (fun x v => Host.reduce IntOp.andi x v reducesTo_S1024x5_S_d0_1 h_S_) main_v14 main_c_5
  fn_part1 (F := F) main_arg4 main_v12 main_v15
-- ==== Kernel.lean ====
abbrev S100000x128 : Shape := ⟨2, ![100000, 128]⟩
abbrev S1024x1 : Shape := ⟨2, ![1024, 1]⟩
abbrev S1024x5 : Shape := ⟨2, ![1024, 5]⟩
abbrev S1024 : Shape := ⟨1, ![1024]⟩
abbrev S_ : Shape := ⟨0, ![]⟩
abbrev S1024x128 : Shape := ⟨2, ![1024, 128]⟩
abbrev S1024x5x1 : Shape := ⟨3, ![1024, 5, 1]⟩
abbrev S1024x5x128 : Shape := ⟨3, ![1024, 5, 128]⟩
abbrev S1x1024 : Shape := ⟨2, ![1, 1024]⟩
abbrev S128x128 : Shape := ⟨2, ![128, 128]⟩
abbrev S128x5x128 : Shape := ⟨3, ![128, 5, 128]⟩
abbrev S1x128 : Shape := ⟨2, ![1, 128]⟩
abbrev S128x1x128 : Shape := ⟨3, ![128, 1, 128]⟩
abbrev S128x5 : Shape := ⟨2, ![128, 5]⟩
abbrev S128 : Shape := ⟨1, ![128]⟩

abbrev nBuf : Space → Nat
  | .hbm => 90
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S1024x1, .i32⟩
  | .hbm, ⟨3, _⟩ => ⟨S1024x5, .i32⟩
  | .hbm, ⟨4, _⟩ => ⟨S1024x5, .i32⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1024x5, .i32⟩
  | .hbm, ⟨18, _⟩ => ⟨S1024x5, .i32⟩
  | .hbm, ⟨19, _⟩ => ⟨S_, .i32⟩
  | .hbm, ⟨20, _⟩ => ⟨S1024x5, .i32⟩
  | .hbm, ⟨21, _⟩ => ⟨S1024x5, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1024x5, .i32⟩
  | .hbm, ⟨26, _⟩ => ⟨S1024x5, .i32⟩
  | .hbm, ⟨27, _⟩ => ⟨S_, .i32⟩
  | .hbm, ⟨28, _⟩ => ⟨S1024x5, .i32⟩
  | .hbm, ⟨29, _⟩ => ⟨S1024x5, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1024x128, .f32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1024x1, .i32⟩
  | .hbm, ⟨47, _⟩ => ⟨S1024x128, .f32⟩
  | .hbm, ⟨48, _⟩ => ⟨S_, .i32⟩
  | .hbm, ⟨49, _⟩ => ⟨S1024x5, .i32⟩
  | .hbm, ⟨50, _⟩ => ⟨S1024x5, .i1⟩
  | .hbm, ⟨51, _⟩ => ⟨S_, .i32⟩
  | .hbm, ⟨52, _⟩ => ⟨S1024x5, .i32⟩
  | .hbm, ⟨53, _⟩ => ⟨S1024x5, .i32⟩
  | .hbm, ⟨54, _⟩ => ⟨S1024x5, .i32⟩
  | .hbm, ⟨55, _⟩ => ⟨S1024x5x1, .i32⟩
  | .hbm, ⟨56, _⟩ => ⟨S1024x5x128, .f32⟩
  | .hbm, ⟨57, _⟩ => ⟨S_, .i32⟩
  | .hbm, ⟨58, _⟩ => ⟨S1024x5, .i32⟩
  | .hbm, ⟨59, _⟩ => ⟨S1024x5, .i1⟩
  | .hbm, ⟨60, _⟩ => ⟨S_, .i32⟩
  | .hbm, ⟨61, _⟩ => ⟨S1024x5, .i32⟩
  | .hbm, ⟨62, _⟩ => ⟨S1024x5, .i32⟩
  | .hbm, ⟨63, _⟩ => ⟨S1024x5, .i32⟩
  | .hbm, ⟨64, _⟩ => ⟨S1024x5x1, .i32⟩
  | .hbm, ⟨65, _⟩ => ⟨S1024x5x128, .f32⟩
  | .hbm, ⟨66, _⟩ => ⟨S_, .i32⟩
  | .hbm, ⟨67, _⟩ => ⟨S1024x5, .i32⟩
  | .hbm, ⟨68, _⟩ => ⟨S1024x5, .i1⟩
  | .hbm, ⟨69, _⟩ => ⟨S_, .i32⟩
  | .hbm, ⟨70, _⟩ => ⟨S1024x5, .i32⟩
  | .hbm, ⟨71, _⟩ => ⟨S1024x5, .i32⟩
  | .hbm, ⟨72, _⟩ => ⟨S1024x5, .i32⟩
  | .hbm, ⟨73, _⟩ => ⟨S1024x5x1, .i32⟩
  | .hbm, ⟨74, _⟩ => ⟨S1024x5x128, .f32⟩
  | .hbm, ⟨75, _⟩ => ⟨S_, .i32⟩
  | .hbm, ⟨76, _⟩ => ⟨S1024x5, .i32⟩
  | .hbm, ⟨77, _⟩ => ⟨S1024x5, .i1⟩
  | .hbm, ⟨78, _⟩ => ⟨S_, .i32⟩
  | .hbm, ⟨79, _⟩ => ⟨S1024x5, .i32⟩
  | .hbm, ⟨80, _⟩ => ⟨S1024x5, .i32⟩
  | .hbm, ⟨81, _⟩ => ⟨S1024x5, .i32⟩
  | .hbm, ⟨82, _⟩ => ⟨S1024x5x1, .i32⟩
  | .hbm, ⟨83, _⟩ => ⟨S1024x5x128, .f32⟩
  | .hbm, ⟨84, _⟩ => ⟨S1x1024, .f32⟩
  | .hbm, ⟨85, _⟩ => ⟨S1024, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x5x128, .f32⟩
  | .local _ .vmem, ⟨5, _⟩ => ⟨S128x5x128, .f32⟩
  | .local _ .vmem, ⟨6, _⟩ => ⟨S128x5x128, .f32⟩
  | .local _ .vmem, ⟨7, _⟩ => ⟨S128x5x128, .f32⟩
  | .local _ .vmem, ⟨8, _⟩ => ⟨S128x5x128, .f32⟩
  | .local _ .vmem, ⟨9, _⟩ => ⟨S128x5x128, .f32⟩
  | .local _ .vmem, ⟨10, _⟩ => ⟨S128x5x128, .f32⟩
  | .local _ .vmem, ⟨11, _⟩ => ⟨S128x5x128, .f32⟩
  | .local _ .vmem, ⟨12, _⟩ => ⟨S1x128, .f32⟩
  | .local _ .vmem, ⟨13, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1 : Ref sig .tc := ⟨.hbm, 13, rfl⟩
abbrev main_c_1 : Ref sig .tc := ⟨.hbm, 14, rfl⟩
abbrev main_c_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v2 : Ref sig .tc := ⟨.hbm, 21, rfl⟩
abbrev main_c_3 : Ref sig .tc := ⟨.hbm, 22, rfl⟩
abbrev main_c_4 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v3 : Ref sig .tc := ⟨.hbm, 29, rfl⟩
abbrev main_c_5 : Ref sig .tc := ⟨.hbm, 30, rfl⟩
abbrev main_v4 : Ref sig .tc := ⟨.hbm, 31, rfl⟩
abbrev main_v5 : Ref sig .tc := ⟨.hbm, 32, rfl⟩
abbrev main_c_6 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_7 : Ref sig .tc := ⟨.hbm, 39, rfl⟩
abbrev main_v11 : Ref sig .tc := ⟨.hbm, 40, rfl⟩
abbrev main_v12 : Ref sig .tc := ⟨.hbm, 41, rfl⟩
abbrev main_c_8 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_9 : Ref sig .tc := ⟨.hbm, 48, rfl⟩
abbrev main_v18 : Ref sig .tc := ⟨.hbm, 49, rfl⟩
abbrev main_v19 : Ref sig .tc := ⟨.hbm, 50, rfl⟩
abbrev main_c_10 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_11 : Ref sig .tc := ⟨.hbm, 57, rfl⟩
abbrev main_v25 : Ref sig .tc := ⟨.hbm, 58, rfl⟩
abbrev main_v26 : Ref sig .tc := ⟨.hbm, 59, rfl⟩
abbrev main_c_12 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_13 : Ref sig .tc := ⟨.hbm, 66, rfl⟩
abbrev main_v32 : Ref sig .tc := ⟨.hbm, 67, rfl⟩
abbrev main_v33 : Ref sig .tc := ⟨.hbm, 68, rfl⟩
abbrev main_c_14 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_15 : Ref sig .tc := ⟨.hbm, 75, rfl⟩
abbrev main_v39 : Ref sig .tc := ⟨.hbm, 76, rfl⟩
abbrev main_v40 : Ref sig .tc := ⟨.hbm, 77, rfl⟩
abbrev main_c_16 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst : Ref sig .tc := ⟨.hbm, 86, rfl⟩
abbrev main_v48 : Ref sig .tc := ⟨.hbm, 87, rfl⟩
abbrev main_cst_17 : Ref sig .tc := ⟨.hbm, 88, rfl⟩
abbrev main_v49 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x5x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x5x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x5x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1024x1_S1024 : S1024x1.ShapeCasts S1024
  bcast_S_S1024 : S_.BroadcastsInDim S1024 (![] : Fin 0 → Fin S1024.rank)
  bcast_S_S1024x5 : S_.BroadcastsInDim S1024x5 (![] : Fin 0 → Fin S1024x5.rank)
  bcast_S1024_S1024x1_0 : S1024.BroadcastsInDim S1024x1 (![0] : Fin 1 → Fin S1024x1.rank)
  bcast_S1024x5_S1024x5x1_0_1 : S1024x5.BroadcastsInDim S1024x5x1 (![0, 1] : Fin 2 → Fin S1024x5x1.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  inb_S128x5x128_S128x5x128_0_0_0 : ∀ a, (![0, 0, 0] : Fin 3 → Nat) a + S128x5x128.size a ≤ S128x5x128.size a
  h_S128x5x128 : 0 < S128x5x128.numel
  shapeCasts_S128x5x128_S128x5x128 : S128x5x128.ShapeCasts S128x5x128
  broadcasts_S128x1x128_S128x5x128 : S128x1x128.Broadcasts S128x5x128
  reduces_S128x5x128_S128x5 : S128x5x128.Reduces [2] S128x5
  reduces_S128x5_S128 : S128x5.Reduces [1] S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x1024_S1024 : S1x1024.ShapeCasts S1024
  reducesTo_S1024_S_d0 : S1024.ReducesTo [0] S_
  h_S_ : 0 < S_.numel
  gather_S100000x128_S1024x1_S1024x128_1_0_n_n_0_1_1128_wf : GatherDims.WF S100000x128 S1024x1 S1024x128 [1] [0] [] [0] [] 1 ![1, 128]
  gather_S100000x128_S1024x5x1_S1024x5x128_2_0_n_n_0_2_1128_wf : GatherDims.WF S100000x128 S1024x5x1 S1024x5x128 [2] [0] [] [0] [] 2 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S1024x128.size a
  hwx0_0 : ∀ i : grid0.Coords, EltTy.bits .f32 = 32 ∨ (Rect.block (s := S1024x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x128.size a
  hwx0_1 : ∀ i : grid0.Coords, EltTy.bits .f32 = 32 ∨ (Rect.block (s := S1024x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x5x128.size a ≤ S1024x5x128.size a
  hwx0_2 : ∀ i : grid0.Coords, EltTy.bits .f32 = 32 ∨ (Rect.block (s := S1024x5x128) S128x5x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x5x128.size a ≤ S1024x5x128.size a
  hwx0_3 : ∀ i : grid0.Coords, EltTy.bits .f32 = 32 ∨ (Rect.block (s := S1024x5x128) S128x5x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x5x128.size a ≤ S1024x5x128.size a
  hwx0_4 : ∀ i : grid0.Coords, EltTy.bits .f32 = 32 ∨ (Rect.block (s := S1024x5x128) S128x5x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x5x128.size a ≤ S1024x5x128.size a
  hwx0_5 : ∀ i : grid0.Coords, EltTy.bits .f32 = 32 ∨ (Rect.block (s := S1024x5x128) S128x5x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x1024.size a
  hwx0_6 : ∀ i : grid0.Coords, EltTy.bits .f32 = 32 ∨ (Rect.block (s := S1x1024) S1x128.size (cc0_transform_6 i) (hinb0_6 i)).WholeWords (EltTy.packing .f32)

variable [Facts₀]

def gather_S100000x128_S1024x1_S1024x128_1_0_n_n_0_1_1128 : GatherDims S100000x128 S1024x1 S1024x128 where
  offsetDims := [1]
  collapsedSliceDims := [0]
  operandBatchingDims := []
  startIndicesBatchingDims := []
  startIndexMap := [0]
  indexVectorDim := 1
  sliceSizes := ![1, 128]
  wf := gather_S100000x128_S1024x1_S1024x128_1_0_n_n_0_1_1128_wf
def gather_S100000x128_S1024x5x1_S1024x5x128_2_0_n_n_0_2_1128 : GatherDims S100000x128 S1024x5x1 S1024x5x128 where
  offsetDims := [2]
  collapsedSliceDims := [0]
  operandBatchingDims := []
  startIndicesBatchingDims := []
  startIndexMap := [0]
  indexVectorDim := 2
  sliceSizes := ![1, 128]
  wf := gather_S100000x128_S1024x5x1_S1024x5x128_2_0_n_n_0_2_1128_wf

abbrev win0_0 : Pipeline.Window sig grid0 :=
  Pipeline.Window.ofSpec (Memref.whole main_v10) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x5x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S128x5x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v38) S128x5x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v45) S128x5x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v46) S1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1024x1 : Shape := ⟨2, ![1024, 1]⟩
abbrev S1024x5 : Shape := ⟨2, ![1024, 5]⟩
abbrev S_ : Shape := ⟨0, ![]⟩
abbrev S1024x1x1 : Shape := ⟨3, ![1024, 1, 1]⟩
abbrev S1024x1x128 : Shape := ⟨3, ![1024, 1, 128]⟩
abbrev S1024x5x1 : Shape := ⟨3, ![1024, 5, 1]⟩
abbrev S1024x5x128 : Shape := ⟨3, ![1024, 5, 128]⟩
abbrev S1024 : Shape := ⟨1, ![1024]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S1024x1, .i32⟩
  | .hbm, ⟨3, _⟩ => ⟨S1024x5, .i32⟩
  | .hbm, ⟨4, _⟩ => ⟨S1024x5, .i32⟩
  | .hbm, ⟨5, _⟩ => ⟨S_, .i32⟩
  | .hbm, ⟨6, _⟩ => ⟨S1024x1, .i32⟩
  | .hbm, ⟨7, _⟩ => ⟨S1024x1, .i1⟩
  | .hbm, ⟨8, _⟩ => ⟨S_, .i32⟩
  | .hbm, ⟨9, _⟩ => ⟨S1024x1, .i32⟩
  | .hbm, ⟨10, _⟩ => ⟨S1024x1, .i32⟩
  | .hbm, ⟨11, _⟩ => ⟨S1024x1, .i32⟩
  | .hbm, ⟨12, _⟩ => ⟨S1024x1x1, .i32⟩
  | .hbm, ⟨13, _⟩ => ⟨S1024x1x128, .f32⟩
  | .hbm, ⟨14, _⟩ => ⟨S_, .i32⟩
  | .hbm, ⟨15, _⟩ => ⟨S1024x1, .i32⟩
  | .hbm, ⟨16, _⟩ => ⟨S1024x1, .i1⟩
  | .hbm, ⟨17, _⟩ => ⟨S_, .i32⟩
  | .hbm, ⟨18, _⟩ => ⟨S1024x1, .i32⟩
  | .hbm, ⟨19, _⟩ => ⟨S1024x1, .i32⟩
  | .hbm, ⟨20, _⟩ => ⟨S1024x1, .i32⟩
  | .hbm, ⟨21, _⟩ => ⟨S1024x1x1, .i32⟩
  | .hbm, ⟨22, _⟩ => ⟨S1024x1x128, .f32⟩
  | .hbm, ⟨23, _⟩ => ⟨S_, .i32⟩
  | .hbm, ⟨24, _⟩ => ⟨S1024x5, .i32⟩
  | .hbm, ⟨25, _⟩ => ⟨S1024x5, .i1⟩
  | .hbm, ⟨26, _⟩ => ⟨S_, .i32⟩
  | .hbm, ⟨27, _⟩ => ⟨S1024x5, .i32⟩
  | .hbm, ⟨28, _⟩ => ⟨S1024x5, .i32⟩
  | .hbm, ⟨29, _⟩ => ⟨S1024x5, .i32⟩
  | .hbm, ⟨30, _⟩ => ⟨S1024x5x1, .i32⟩
  | .hbm, ⟨31, _⟩ => ⟨S1024x5x128, .f32⟩
  | .hbm, ⟨32, _⟩ => ⟨S_, .i32⟩
  | .hbm, ⟨33, _⟩ => ⟨S1024x5, .i32⟩
  | .hbm, ⟨34, _⟩ => ⟨S1024x5, .i1⟩
  | .hbm, ⟨35, _⟩ => ⟨S_, .i32⟩
  | .hbm, ⟨36, _⟩ => ⟨S1024x5, .i32⟩
  | .hbm, ⟨37, _⟩ => ⟨S1024x5, .i32⟩
  | .hbm, ⟨38, _⟩ => ⟨S1024x5, .i32⟩
  | .hbm, ⟨39, _⟩ => ⟨S1024x5x1, .i32⟩
  | .hbm, ⟨40, _⟩ => ⟨S1024x5x128, .f32⟩
  | .hbm, ⟨41, _⟩ => ⟨S_, .i32⟩
  | .hbm, ⟨42, _⟩ => ⟨S1024x5, .i32⟩
  | .hbm, ⟨43, _⟩ => ⟨S1024x5, .i1⟩
  | .hbm, ⟨44, _⟩ => ⟨S_, .i32⟩
  | .hbm, ⟨45, _⟩ => ⟨S1024x5, .i32⟩
  | .hbm, ⟨46, _⟩ => ⟨S1024x5, .i32⟩
  | .hbm, ⟨47, _⟩ => ⟨S1024x5, .i32⟩
  | .hbm, ⟨48, _⟩ => ⟨S1024x5x1, .i32⟩
  | .hbm, ⟨49, _⟩ => ⟨S1024x5x128, .f32⟩
  | .hbm, ⟨50, _⟩ => ⟨S_, .i32⟩
  | .hbm, ⟨51, _⟩ => ⟨S1024x5, .i32⟩
  | .hbm, ⟨52, _⟩ => ⟨S1024x5, .i1⟩
  | .hbm, ⟨53, _⟩ => ⟨S_, .i32⟩
  | .hbm, ⟨54, _⟩ => ⟨S1024x5, .i32⟩
  | .hbm, ⟨55, _⟩ => ⟨S1024x5, .i32⟩
  | .hbm, ⟨56, _⟩ => ⟨S1024x5, .i32⟩
  | .hbm, ⟨57, _⟩ => ⟨S1024x5x1, .i32⟩
  | .hbm, ⟨58, _⟩ => ⟨S1024x5x128, .f32⟩
  | .hbm, ⟨59, _⟩ => ⟨S1024x5x128, .f32⟩
  | .hbm, ⟨60, _⟩ => ⟨S1024x5x128, .f32⟩
  | .hbm, ⟨61, _⟩ => ⟨S1024x5x128, .f32⟩
  | .hbm, ⟨62, _⟩ => ⟨S1024x5x128, .f32⟩
  | .hbm, ⟨63, _⟩ => ⟨S1024x5x128, .f32⟩
  | .hbm, ⟨64, _⟩ => ⟨S1024x5x128, .f32⟩
  | .hbm, ⟨65, _⟩ => ⟨S1024x5x128, .f32⟩
  | .hbm, ⟨66, _⟩ => ⟨S_, .f32⟩
  | .hbm, ⟨67, _⟩ => ⟨S1024x5x128, .f32⟩
  | .hbm, ⟨68, _⟩ => ⟨S1024x5x128, .f32⟩
  | .hbm, ⟨69, _⟩ => ⟨S1024x5x128, .f32⟩
  | .hbm, ⟨70, _⟩ => ⟨S1024x5x128, .f32⟩
  | .hbm, ⟨71, _⟩ => ⟨S1024x1x128, .f32⟩
  | .hbm, ⟨72, _⟩ => ⟨S1024x5x128, .f32⟩
  | .hbm, ⟨73, _⟩ => ⟨S1024x5x128, .f32⟩
  | .hbm, ⟨74, _⟩ => ⟨S_, .f32⟩
  | .hbm, ⟨75, _⟩ => ⟨S1024x5, .f32⟩
  | .hbm, ⟨76, _⟩ => ⟨S_, .f32⟩
  | .hbm, ⟨77, _⟩ => ⟨S1024x5, .f32⟩
  | .hbm, ⟨78, _⟩ => ⟨S1024x5, .f32⟩
  | .hbm, ⟨79, _⟩ => ⟨S1024x5x128, .f32⟩
  | .hbm, ⟨80, _⟩ => ⟨S1024x5x128, .f32⟩
  | .hbm, ⟨81, _⟩ => ⟨S1024x5x128, .f32⟩
  | .hbm, ⟨82, _⟩ => ⟨S1024x5x128, .f32⟩
  | .hbm, ⟨83, _⟩ => ⟨S1024x5x128, .f32⟩
  | .hbm, ⟨84, _⟩ => ⟨S1024x5x128, .f32⟩
  | .hbm, ⟨85, _⟩ => ⟨S1024x5x128, .f32⟩
  | .hbm, ⟨86, _⟩ => ⟨S_, .f32⟩
  | .hbm, ⟨87, _⟩ => ⟨S1024x5x128, .f32⟩
  | .hbm, ⟨88, _⟩ => ⟨S1024x5x128, .f32⟩
  | .hbm, ⟨89, _⟩ => ⟨S1024x5x128, .f32⟩
  | .hbm, ⟨90, _⟩ => ⟨S1024x5x128, .f32⟩
  | .hbm, ⟨91, _⟩ => ⟨S1024x1x128, .f32⟩
  | .hbm, ⟨92, _⟩ => ⟨S1024x5x128, .f32⟩
  | .hbm, ⟨93, _⟩ => ⟨S1024x5x128, .f32⟩
  | .hbm, ⟨94, _⟩ => ⟨S_, .f32⟩
  | .hbm, ⟨95, _⟩ => ⟨S1024x5, .f32⟩
  | .hbm, ⟨96, _⟩ => ⟨S_, .f32⟩
  | .hbm, ⟨97, _⟩ => ⟨S1024x5, .f32⟩
  | .hbm, ⟨98, _⟩ => ⟨S1024x5, .f32⟩
  | .hbm, ⟨99, _⟩ => ⟨S_, .f32⟩
  | .hbm, ⟨100, _⟩ => ⟨S1024x5, .f32⟩
  | .hbm, ⟨101, _⟩ => ⟨S1024x5, .f32⟩
  | .hbm, ⟨102, _⟩ => ⟨S1024x5, .f32⟩
  | .hbm, ⟨103, _⟩ => ⟨S_, .f32⟩
  | .hbm, ⟨104, _⟩ => ⟨S1024x5, .f32⟩
  | .hbm, ⟨105, _⟩ => ⟨S1024x5, .f32⟩
  | .hbm, ⟨106, _⟩ => ⟨S_, .f32⟩
  | .hbm, ⟨107, _⟩ => ⟨S1024, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_7 : Ref sig .tc := ⟨.hbm, 41, rfl⟩
abbrev main_v28 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_9 : Ref sig .tc := ⟨.hbm, 50, rfl⟩
abbrev main_v35 : Ref sig .tc := ⟨.hbm, 51, rfl⟩
abbrev main_v36 : Ref sig .tc := ⟨.hbm, 52, rfl⟩
abbrev main_c_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_14 : Ref sig .tc := ⟨.hbm, 94, rfl⟩
abbrev main_v73 : Ref sig .tc := ⟨.hbm, 95, rfl⟩
abbrev main_cst_15 : Ref sig .tc := ⟨.hbm, 96, rfl⟩
abbrev main_v74 : Ref sig .tc := ⟨.hbm, 97, rfl⟩
abbrev main_v75 : Ref sig .tc := ⟨.hbm, 98, rfl⟩
abbrev main_cst_16 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_17 : Ref sig .tc := ⟨.hbm, 103, rfl⟩
abbrev main_v79 : Ref sig .tc := ⟨.hbm, 104, rfl⟩
abbrev main_v80 : Ref sig .tc := ⟨.hbm, 105, rfl⟩
abbrev main_cst_18 : Ref sig .tc := ⟨.hbm, 106, rfl⟩
abbrev main_v81 : Ref sig .tc := ⟨.hbm, 107, rfl⟩
abbrev main_cst_19 : Ref sig .tc := ⟨.hbm, 108, rfl⟩
abbrev main_v82 : Ref sig .tc := ⟨.hbm, 109, rfl⟩
abbrev main_cst_20 : Ref sig .tc := ⟨.hbm, 110, rfl⟩
abbrev main_v83 : Ref sig .tc := ⟨.hbm, 111, rfl⟩

abbrev nD : Nat := 1
abbrev τ : Topo := Topo.v7x

variable {F : FTy → Type} [FloatOps F]

class Facts₀ : Prop where
  bcast_S_S1024x1 : S_.BroadcastsInDim S1024x1 (![] : Fin 0 → Fin S1024x1.rank)
  bcast_S1024x1_S1024x1x1_0_1 : S1024x1.BroadcastsInDim S1024x1x1 (![0, 1] : Fin 2 → Fin S1024x1x1.rank)
  bcast_S_S1024x5 : S_.BroadcastsInDim S1024x5 (![] : Fin 0 → Fin S1024x5.rank)
  bcast_S1024x5_S1024x5x1_0_1 : S1024x5.BroadcastsInDim S1024x5x1 (![0, 1] : Fin 2 → Fin S1024x5x1.rank)
  bcast_S1024x1x128_S1024x5x128_0_1_2 : S1024x1x128.BroadcastsInDim S1024x5x128 (![0, 1, 2] : Fin 3 → Fin S1024x5x128.rank)
  bcast_S_S1024x5x128 : S_.BroadcastsInDim S1024x5x128 (![] : Fin 0 → Fin S1024x5x128.rank)
  reducesTo_S1024x5x128_S1024x5_d2 : S1024x5x128.ReducesTo [2] S1024x5
  h_S_ : 0 < S_.numel
  reducesTo_S1024x5_S1024_d1 : S1024x5.ReducesTo [1] S1024
  reducesTo_S1024_S_d0 : S1024.ReducesTo [0] S_
  gather_S100000x128_S1024x1x1_S1024x1x128_2_0_n_n_0_2_1128_wf : GatherDims.WF S100000x128 S1024x1x1 S1024x1x128 [2] [0] [] [0] [] 2 ![1, 128]
  gather_S100000x128_S1024x5x1_S1024x5x128_2_0_n_n_0_2_1128_wf : GatherDims.WF S100000x128 S1024x5x1 S1024x5x128 [2] [0] [] [0] [] 2 ![1, 128]

variable [Facts₀]

def gather_S100000x128_S1024x1x1_S1024x1x128_2_0_n_n_0_2_1128 : GatherDims S100000x128 S1024x1x1 S1024x1x128 where
  offsetDims := [2]
  collapsedSliceDims := [0]
  operandBatchingDims := []
  startIndicesBatchingDims := []
  startIndexMap := [0]
  indexVectorDim := 2
  sliceSizes := ![1, 128]
  wf := gather_S100000x128_S1024x1x1_S1024x1x128_2_0_n_n_0_2_1128_wf
def gather_S100000x128_S1024x5x1_S1024x5x128_2_0_n_n_0_2_1128 : GatherDims S100000x128 S1024x5x1 S1024x5x128 where
  offsetDims := [2]
  collapsedSliceDims := [0]
  operandBatchingDims := []
  startIndicesBatchingDims := []
  startIndexMap := [0]
  indexVectorDim := 2
  sliceSizes := ![1, 128]
  wf := gather_S100000x128_S1024x5x1_S1024x5x128_2_0_n_n_0_2_1128_wf

class Facts : Prop extends Facts₀ where

variable [Facts]
-- ==== Proof.Spec.lean ====
/-
  THE VALUE BOTH PROGRAMS COMPUTE, as one function of the six gathered arrays. For each of 1024 examples there is a
  target row (means `mt`, variances `st`, 128 lanes each), five positive context rows (`mp`, `sp`) and five negative
  ones (`mn`, `sn`). The divergence of the target's diagonal Gaussian from a context's is half the sum over the lanes of
      st / sc + (mc − mt)² / sc − 1 + log sc − log st,
  an example's loss is the sum over its five context pairs of the hinge `max 0 (margin − kl_pos + kl_neg)`, and the
  result is the sum of the 1024 losses divided by 1024. Every operation is the extended reals' own (the quotient and the
  logarithm total, with the conventions of the ideal instance), the four constants are kept as the words the programs
  print, and the parentheses are the programs': the lemmas that read either program down to this function are then
  pure bookkeeping of indices, and no law of arithmetic is used between them.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The word of `1.0`. -/
abbrev one : EReal := Ideal.ofBits .f32 0x3F800000#32
/-- The word of `0.5`. -/
abbrev half : EReal := Ideal.ofBits .f32 0x3F000000#32
/-- The word of the margin, the binary32 nearest `0.1`. -/
abbrev margin : EReal := Ideal.ofBits .f32 0x3DCCCCCD#32
/-- The word of `1024.0`, the number of examples. -/
abbrev count : EReal := Ideal.ofBits .f32 0x44800000#32

/-- One lane's term of the divergence of `N(mt, st)` from `N(mc, sc)`. -/
def term (mt st mc sc : EReal) : EReal :=
  Ideal.div st sc + Ideal.div ((mc - mt) * (mc - mt)) sc - one + Ideal.log sc - Ideal.log st

/-- The divergence of a target row from a context row: half the sum of the lanes' terms. -/
def klRow (mt st mc sc : Fin 128 → EReal) : EReal :=
  half * ∑ e : Fin 128, term (mt e) (st e) (mc e) (sc e)

/-- One example's loss: the hinge of each of its five context pairs, summed. -/
def rowLoss (mt st : Fin 128 → EReal) (mp sp mn sn : Fin 5 → Fin 128 → EReal) : EReal :=
  ∑ w : Fin 5, max 0 (margin - klRow mt st (mp w) (sp w) + klRow mt st (mn w) (sn w))

/-- The mean loss over the 1024 examples. -/
def loss (MT ST : Fin 1024 → Fin 128 → EReal) (MP SP MN SN : Fin 1024 → Fin 5 → Fin 128 → EReal) : EReal :=
  Ideal.div (∑ b : Fin 1024, rowLoss (MT b) (ST b) (MP b) (SP b) (MN b) (SN b)) count

/-- The loss depends on the gathered arrays only through their entries. -/
theorem loss_congr {MT ST MT' ST' : Fin 1024 → Fin 128 → EReal} {MP SP MN SN MP' SP' MN' SN' : Fin 1024 → Fin 5 → Fin 128 → EReal}
    (h1 : MT = MT') (h2 : ST = ST') (h3 : MP = MP') (h4 : SP = SP') (h5 : MN = MN') (h6 : SN = SN') :
    loss MT ST MP SP MN SN = loss MT' ST' MP' SP' MN' SN' := by
  subst h1 h2 h3 h4 h5 h6; rfl

/-- A rank-1 index set is its one coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  exact Fintype.sum_equiv ⟨fun i => i 0, fun a => ix1 a, fun i => (eq_ix1 i).symm, fun _ => rfl⟩ _ _
    fun i => congrArg f (eq_ix1 i)

/-- The row a 32-bit index word names in a table of 100000 rows once it is known non-negative: `min x 99999`. -/
def rowOf (x : BitVec 32) : Fin 100000 := ⟨min x.toNat 99999, by omega⟩

end Cert.Spec

end
-- ==== Proof.PreIndex.lean ====
/-
  THE PRECONDITION, READ BACK AS FACTS ABOUT THE INDEX WORDS. The stated precondition is the conjunction of five `all`s:
  every entry of the two tables finite, and every entry of the three index arrays `≥ 0` as a signed 32-bit integer. It is
  printed as a chain of one-bit `and`s of five reductions by `and`, and assumed to be 1. Splitting the chain from the
  outside and reading each reduction back element by element gives, for the three index arrays, `0 ≤ x.toInt` at every
  index. The two finiteness conjuncts are not used: the two programs apply the same operations to the same entries, so
  no law that needs finite operands stands between them.
-/
import proofs.«409841_j49211735277727_3_alg».proof.Pre_finite_inputs
import Idealize.ShloMosaic.Lib.ReduceAll
import Idealize.ShloMosaic.Lib.ValueIdx

namespace Cert.PreIndex

open Idealize.ShloMosaic Idealize.ShloMosaic.ValueIdx Cert.Pre_finite_inputs

/-- The scalar shape has one index. -/
instance : Subsingleton S_.Idx := ⟨fun a b => funext fun d => d.elim0⟩

/-- An element of `x ≥ 0` (a signed compare against a repeated zero word) that is 1 says `0 ≤ x.toInt`. -/
theorem nonneg_of_sge {s : Shape} (x : IVec s 32) (z : IVec s 32) (hz : ∀ i, z i = 0#32) (i : s.Idx)
    (h : cmpi .sge x z i = 1#1) : 0 ≤ (x i).toInt := by
  have h' : IntOp.cmpi .sge (x i) (z i) = 1#1 := h
  rw [hz i] at h'
  have := IntOp.cmpi_sge.1 h'
  simpa using this

variable [Facts]

/-- Under the precondition every word of the three index arrays is non-negative as a signed integer. -/
theorem nonneg_of_pre {F : FTy → Type} [FloatOps F] (a0 a1 : FVec F S100000x128 .f32) (a2 : IVec S1024x1 32)
    (a3 a4 : IVec S1024x5 32) (h : fn (F := F) a0 a1 a2 a3 a4 = fun _ => 1#1) :
    (∀ i, 0 ≤ (a2 i).toInt) ∧ (∀ i, 0 ≤ (a3 i).toInt) ∧ (∀ i, 0 ≤ (a4 i).toInt) := by
  have h0 := congrFun h ix0
  dsimp only [fn, fn_part1] at h0
  obtain ⟨ha, h4⟩ := IntOp.andi_eq_one.1 h0
  obtain ⟨hb, h3⟩ := IntOp.andi_eq_one.1 ha
  obtain ⟨_, h2⟩ := IntOp.andi_eq_one.1 hb
  refine ⟨fun i => ?_, fun i => ?_, fun i => ?_⟩
  · exact nonneg_of_sge a2 _ (fun _ => rfl) i (Host.reduce_andi_all _ _ _ _ _ h2 i)
  · exact nonneg_of_sge a3 _ (fun _ => rfl) i (Host.reduce_andi_all _ _ _ _ _ h3 i)
  · exact nonneg_of_sge a4 _ (fun _ => rfl) i (Host.reduce_andi_all _ _ _ _ _ h4 i)

end Cert.PreIndex
-- ==== Proof.RefValue.lean ====
/-
  THE REFERENCE'S RESULT IS `Spec.loss` OF ITS SIX GATHERED ARRAYS. The reference gathers the target rows as 1024 × 1 × 128
  arrays and the context rows as 1024 × 5 × 128 arrays, repeats the target's along the five contexts, and then applies the
  operations of `Spec` in the order `Spec` writes them: the lanes' terms, the sum over the 128 lanes from a zero initial
  value, the half, the hinge, the sum over the five contexts, the sum over the 1024 examples, the division by 1024.
  Read one operation at a time at an index, the only things to settle are which index of an operand an index of a
  result reads — `(b, w, e)` of a repeated array reads `(b, 0, e)`; `(b, w)` of a lane sum reads `(b, w, e)` for each lane
  `e` — and that a sum's zero initial value is the extended real 0.
-/
import proofs.«409841_j49211735277727_3_alg».proof.Proof.Gen.ReferenceIdeal.Read
import proofs.«409841_j49211735277727_3_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.ShloMosaic.ValueIdx Cert.Spec

variable (x0 x1 : (⟨S100000x128, .f32⟩ : BufTy).Contents (Elt Ideal)) (x2 : (⟨S1024x1, .i32⟩ : BufTy).Contents (Elt Ideal))
  (x3 x4 : (⟨S1024x5, .i32⟩ : BufTy).Contents (Elt Ideal))

/-! ## Which index an index reads -/

theorem idx42 (b : Fin 1024) (w : Fin 5) (e : Fin 128) : idx_main_v42 (ix3 b w e) = ix3 b (0 : Fin 1) e := by
  funext a; match a with | ⟨0, _⟩ => rfl | ⟨1, _⟩ => rfl | ⟨2, _⟩ => rfl
theorem idx44 (b : Fin 1024) (w : Fin 5) (e : Fin 128) : idx_main_v44 (ix3 b w e) = ix3 b (0 : Fin 1) e := by
  funext a; match a with | ⟨0, _⟩ => rfl | ⟨1, _⟩ => rfl | ⟨2, _⟩ => rfl
theorem idx54 (b : Fin 1024) (w : Fin 5) (e : Fin 128) : idx_main_v54 (ix3 b w e) = ix3 b (0 : Fin 1) e := by
  funext a; match a with | ⟨0, _⟩ => rfl | ⟨1, _⟩ => rfl | ⟨2, _⟩ => rfl
theorem idx59 (b : Fin 1024) (w : Fin 5) (e : Fin 128) : idx_main_v59 (ix3 b w e) = ix3 b (0 : Fin 1) e := by
  funext a; match a with | ⟨0, _⟩ => rfl | ⟨1, _⟩ => rfl | ⟨2, _⟩ => rfl
theorem idx61 (b : Fin 1024) (w : Fin 5) (e : Fin 128) : idx_main_v61 (ix3 b w e) = ix3 b (0 : Fin 1) e := by
  funext a; match a with | ⟨0, _⟩ => rfl | ⟨1, _⟩ => rfl | ⟨2, _⟩ => rfl
theorem idx71 (b : Fin 1024) (w : Fin 5) (e : Fin 128) : idx_main_v71 (ix3 b w e) = ix3 b (0 : Fin 1) e := by
  funext a; match a with | ⟨0, _⟩ => rfl | ⟨1, _⟩ => rfl | ⟨2, _⟩ => rfl
theorem idx56 (b : Fin 1024) (w : Fin 5) (e : Fin 128) : idx_main_v56 (ix2 b w) e = ix3 b w e := by
  funext a; match a with | ⟨0, _⟩ => rfl | ⟨1, _⟩ => rfl | ⟨2, _⟩ => rfl
theorem idx73 (b : Fin 1024) (w : Fin 5) (e : Fin 128) : idx_main_v73 (ix2 b w) e = ix3 b w e := by
  funext a; match a with | ⟨0, _⟩ => rfl | ⟨1, _⟩ => rfl | ⟨2, _⟩ => rfl
theorem idx81 (b : Fin 1024) (w : Fin 5) : idx_main_v81 (ix1 b) w = ix2 b w := by
  funext a; match a with | ⟨0, _⟩ => rfl | ⟨1, _⟩ => rfl

/-! ## The six gathered arrays, by coordinates -/

/-- The target rows' means. -/
abbrev MT : Fin 1024 → Fin 128 → EReal := fun b e => val_main_v6 (F := Ideal) x0 x2 (ix3 b (0 : Fin 1) e)
/-- The target rows' variances. -/
abbrev ST : Fin 1024 → Fin 128 → EReal := fun b e => val_main_v13 (F := Ideal) x1 x2 (ix3 b (0 : Fin 1) e)
/-- The positive contexts' means. -/
abbrev MP : Fin 1024 → Fin 5 → Fin 128 → EReal := fun b w e => val_main_v20 (F := Ideal) x0 x3 (ix3 b w e)
/-- The positive contexts' variances. -/
abbrev SP : Fin 1024 → Fin 5 → Fin 128 → EReal := fun b w e => val_main_v27 (F := Ideal) x1 x3 (ix3 b w e)
/-- The negative contexts' means. -/
abbrev MN : Fin 1024 → Fin 5 → Fin 128 → EReal := fun b w e => val_main_v34 (F := Ideal) x0 x4 (ix3 b w e)
/-- The negative contexts' variances. -/
abbrev SN : Fin 1024 → Fin 5 → Fin 128 → EReal := fun b w e => val_main_v41 (F := Ideal) x1 x4 (ix3 b w e)

/-! ## A lane's term -/

/-- The positive side's lanes' terms at `(b, w, e)`. -/
theorem termPos_at (b : Fin 1024) (w : Fin 5) (e : Fin 128) :
    val_main_v55 (F := Ideal) x0 x1 x2 x3 (ix3 b w e) = term (MT x0 x2 b e) (ST x1 x2 b e) (MP x0 x3 b w e) (SP x1 x3 b w e) := by
  rw [val_main_v55_apply, val_main_v52_apply, val_main_v50_apply, val_main_v48_apply, val_main_v45_apply, val_main_v47_apply,
    val_main_v46_apply, val_main_v43_apply, val_main_v44_apply, val_main_v42_apply, val_main_v49_apply, val_main_cst_apply,
    val_main_v51_apply, val_main_v54_apply, val_main_v53_apply, idx42, idx44, idx54]
  rfl

/-- The negative side's lanes' terms at `(b, w, e)`. -/
theorem termNeg_at (b : Fin 1024) (w : Fin 5) (e : Fin 128) :
    val_main_v72 (F := Ideal) x0 x1 x2 x4 (ix3 b w e) = term (MT x0 x2 b e) (ST x1 x2 b e) (MN x0 x4 b w e) (SN x1 x4 b w e) := by
  rw [val_main_v72_apply, val_main_v69_apply, val_main_v67_apply, val_main_v65_apply, val_main_v62_apply, val_main_v64_apply,
    val_main_v63_apply, val_main_v60_apply, val_main_v61_apply, val_main_v59_apply, val_main_v66_apply, val_main_cst_13_apply,
    val_main_v68_apply, val_main_v71_apply, val_main_v70_apply, idx59, idx61, idx71]
  rfl

/-! ## A row's divergence, the hinge, an example's loss -/

/-- Half the positive side's lane sum at `(b, w)` is the divergence of the target row from the positive context row. -/
theorem klPos_at (b : Fin 1024) (w : Fin 5) :
    val_main_v58 (F := Ideal) x0 x1 x2 x3 (ix2 b w) = klRow (MT x0 x2 b) (ST x1 x2 b) (MP x0 x3 b w) (SP x1 x3 b w) := by
  rw [val_main_v58_apply, val_main_v57_apply, val_main_cst_12_apply, val_main_v56_apply, val_main_cst_11_apply]
  simp only [idx56, termPos_at, Ideal.ofBits_def, Ideal.ofBits_zero_f32, zero_add]
  rfl

/-- Half the negative side's lane sum at `(b, w)` is the divergence of the target row from the negative context row. -/
theorem klNeg_at (b : Fin 1024) (w : Fin 5) :
    val_main_v75 (F := Ideal) x0 x1 x2 x4 (ix2 b w) = klRow (MT x0 x2 b) (ST x1 x2 b) (MN x0 x4 b w) (SN x1 x4 b w) := by
  rw [val_main_v75_apply, val_main_v74_apply, val_main_cst_15_apply, val_main_v73_apply, val_main_cst_14_apply]
  simp only [idx73, termNeg_at, Ideal.ofBits_def, Ideal.ofBits_zero_f32, zero_add]
  rfl

/-- The hinge at `(b, w)`. -/
theorem hinge_at (b : Fin 1024) (w : Fin 5) :
    val_main_v80 (F := Ideal) x0 x1 x2 x3 x4 (ix2 b w)
      = max 0 (margin - klRow (MT x0 x2 b) (ST x1 x2 b) (MP x0 x3 b w) (SP x1 x3 b w)
          + klRow (MT x0 x2 b) (ST x1 x2 b) (MN x0 x4 b w) (SN x1 x4 b w)) := by
  rw [val_main_v80_apply, val_main_v79_apply, val_main_cst_17_apply, val_main_v78_apply, val_main_v77_apply, val_main_v76_apply,
    val_main_cst_16_apply, klPos_at, klNeg_at]
  simp only [Ideal.ofBits_def, Ideal.ofBits_zero_f32]
  rfl

/-- An example's loss at `b`. -/
theorem rowLoss_at (b : Fin 1024) :
    val_main_v81 (F := Ideal) x0 x1 x2 x3 x4 (ix1 b)
      = rowLoss (MT x0 x2 b) (ST x1 x2 b) (MP x0 x3 b) (SP x1 x3 b) (MN x0 x4 b) (SN x1 x4 b) := by
  rw [val_main_v81_apply, val_main_cst_18_apply]
  simp only [idx81, hinge_at, Ideal.ofBits_def, Ideal.ofBits_zero_f32, zero_add]
  rfl

/-! ## The result -/

/-- THE REFERENCE'S RESULT, at its one index, is the mean loss of its six gathered arrays. -/
theorem result_eq (i : S_.Idx) :
    val_main_v83 (F := Ideal) x0 x1 x2 x3 x4 i
      = loss (MT x0 x2) (ST x1 x2) (MP x0 x3) (SP x1 x3) (MN x0 x4) (SN x1 x4) := by
  rw [val_main_v83_apply, val_main_v82_apply, val_main_cst_20_apply, val_main_cst_19_apply, sum_idx1]
  simp only [rowLoss_at, Ideal.ofBits_def, Ideal.ofBits_zero_f32, zero_add]
  rfl

end Cert.ReferenceIdeal.RefValue

end
-- ==== Proof.LibGatherRows.lean ====
/-
  A ROW GATHER READ AT AN INDEX. `table[idx]` over a rank-2 table `[N, E]` at an integer array of row numbers lowers to a
  `stablehlo.gather` whose one offset axis is the result's last, whose collapsed and start-indexed operand axis is the
  table's row axis, with slice sizes `[1, E]` and the start indices carrying a trailing unit axis for the index vector.
  Result element `(…, e)` is then the table at `(row, e)`, where `row` is the start index at `(…, 0)` read as a signed
  integer and clamped into `[0, N − 1]`: the gather clamps every start index so that its slice fits, so a negative
  row number reads row `0` and one past the end reads row `N − 1`. Stated twice, for row numbers laid out `[R, C, 1]`
  (result `[R, C, E]`) and `[R, 1]` (result `[R, E]`), at any extents.
-/
import Idealize.ShloMosaic.Lib.ValueIdx

noncomputable section

namespace Cert.LibGatherRows

open Idealize.ShloMosaic Idealize.ShloMosaic.ValueIdx

variable {α : Type}

/-! ## Row numbers `[R, C, 1]`, result `[R, C, E]` -/

/-- The dimension numbers of a row gather from `[N, E]` at row numbers `[R, C, 1]`: offset axis 2, the row axis collapsed
    and start-indexed, the index vector on axis 2, slices of one whole row. -/
abbrev rowsDims3 (N E R C : Nat)
    (wf : GatherDims.WF ⟨2, ![N, E]⟩ ⟨3, ![R, C, 1]⟩ ⟨3, ![R, C, E]⟩ [2] [0] [] [0] [] 2 ![1, E]) :
    GatherDims ⟨2, ![N, E]⟩ ⟨3, ![R, C, 1]⟩ ⟨3, ![R, C, E]⟩ where
  offsetDims := [2]
  collapsedSliceDims := [0]
  operandBatchingDims := []
  startIndicesBatchingDims := []
  startIndexMap := [0]
  indexVectorDim := 2
  sliceSizes := ![1, E]
  wf := wf

/-- Result element `(r, c, e)` is the table at row `idx[r, c, 0]` (signed, clamped into `[0, N − 1]`) and column `e`. -/
theorem gather_rows3_apply {N E R C w : Nat} (hN : 0 < N)
    (wf : GatherDims.WF ⟨2, ![N, E]⟩ ⟨3, ![R, C, 1]⟩ ⟨3, ![R, C, E]⟩ [2] [0] [] [0] [] 2 ![1, E])
    (x : (⟨2, ![N, E]⟩ : Shape).Idx → α) (idx : IVec ⟨3, ![R, C, 1]⟩ w) (r : Fin R) (c : Fin C) (e : Fin E) :
    Host.gather (rowsDims3 N E R C wf) x idx (ix3 r c e)
      = x (ix2 ⟨min (idx (ix3 r c (0 : Fin 1))).toInt.toNat (N - 1), by omega⟩ e) := by
  unfold Host.gather
  congr 1
  funext a
  refine Fin.ext ?_
  match a with
  | ⟨0, _⟩ =>
    show (rowsDims3 N E R C wf).start (ix3 r c e) idx 0 + (rowsDims3 N E R C wf).batchCoord (ix3 r c e) 0
      + (rowsDims3 N E R C wf).offCoord (ix3 r c e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N E R C wf).startIndexMap from List.mem_singleton.mpr rfl)]
    have hsi : (rowsDims3 N E R C wf).siIdx (ix3 r c e) ⟨List.idxOf (0 : Fin 2) (rowsDims3 N E R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims3 N E R C wf).start (ix3 r c e) idx 1 + (rowsDims3 N E R C wf).batchCoord (ix3 r c e) 1
      + (rowsDims3 N E R C wf).offCoord (ix3 r c e) 1 = e.val
    rw [GatherDims.batchCoord_eq_zero _ _ _ List.not_mem_nil]
    have hs : (rowsDims3 N E R C wf).start (ix3 r c e) idx 1 = 0 := by
      unfold GatherDims.start
      rw [dif_neg (show (1 : Fin 2) ∉ (rowsDims3 N E R C wf).startIndexMap from
        (by decide : (1 : Fin 2) ∉ ([0] : List (Fin 2))))]
    rw [hs]
    simp only [Nat.add_zero, Nat.zero_add]
    rfl

/-! ## Row numbers `[R, 1]`, result `[R, E]` -/

/-- The dimension numbers of a row gather from `[N, E]` at row numbers `[R, 1]`: offset axis 1, the row axis collapsed and
    start-indexed, the index vector on axis 1, slices of one whole row. -/
abbrev rowsDims2 (N E R : Nat)
    (wf : GatherDims.WF ⟨2, ![N, E]⟩ ⟨2, ![R, 1]⟩ ⟨2, ![R, E]⟩ [1] [0] [] [0] [] 1 ![1, E]) :
    GatherDims ⟨2, ![N, E]⟩ ⟨2, ![R, 1]⟩ ⟨2, ![R, E]⟩ where
  offsetDims := [1]
  collapsedSliceDims := [0]
  operandBatchingDims := []
  startIndicesBatchingDims := []
  startIndexMap := [0]
  indexVectorDim := 1
  sliceSizes := ![1, E]
  wf := wf

/-- Result element `(r, e)` is the table at row `idx[r, 0]` (signed, clamped into `[0, N − 1]`) and column `e`. -/
theorem gather_rows2_apply {N E R w : Nat} (hN : 0 < N)
    (wf : GatherDims.WF ⟨2, ![N, E]⟩ ⟨2, ![R, 1]⟩ ⟨2, ![R, E]⟩ [1] [0] [] [0] [] 1 ![1, E])
    (x : (⟨2, ![N, E]⟩ : Shape).Idx → α) (idx : IVec ⟨2, ![R, 1]⟩ w) (r : Fin R) (e : Fin E) :
    Host.gather (rowsDims2 N E R wf) x idx (ix2 r e)
      = x (ix2 ⟨min (idx (ix2 r (0 : Fin 1))).toInt.toNat (N - 1), by omega⟩ e) := by
  unfold Host.gather
  congr 1
  funext a
  refine Fin.ext ?_
  match a with
  | ⟨0, _⟩ =>
    show (rowsDims2 N E R wf).start (ix2 r e) idx 0 + (rowsDims2 N E R wf).batchCoord (ix2 r e) 0
      + (rowsDims2 N E R wf).offCoord (ix2 r e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims2 N E R wf).startIndexMap from List.mem_singleton.mpr rfl)]
    have hsi : (rowsDims2 N E R wf).siIdx (ix2 r e) ⟨List.idxOf (0 : Fin 2) (rowsDims2 N E R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims2 N E R wf).start (ix2 r e) idx 1 + (rowsDims2 N E R wf).batchCoord (ix2 r e) 1
      + (rowsDims2 N E R wf).offCoord (ix2 r e) 1 = e.val
    rw [GatherDims.batchCoord_eq_zero _ _ _ List.not_mem_nil]
    have hs : (rowsDims2 N E R wf).start (ix2 r e) idx 1 = 0 := by
      unfold GatherDims.start
      rw [dif_neg (show (1 : Fin 2) ∉ (rowsDims2 N E R wf).startIndexMap from
        (by decide : (1 : Fin 2) ∉ ([0] : List (Fin 2))))]
    rw [hs]
    simp only [Nat.add_zero, Nat.zero_add]
    rfl

end Cert.LibGatherRows

end
-- ==== Proof.IndexWords.lean ====
/-
  THE ROW NUMBER A 32-BIT INDEX WORD NAMES, on the two roads the programs take to it. Both gathers read a table of
  100000 rows at a start index that is first WRAPPED the way array indexing wraps a negative number — `x + 100000` when
  `x < 0` (signed), else `x` — and then, by the gather itself, clamped into `[0, 99999]`. One program clips the word
  into `[0, 99999]` (a signed maximum with 0, then a signed minimum with 99999) before it wraps. On a word that is
  non-negative as a signed integer the wrap is the identity, the clip is `min x 99999`, and so both roads end at the same
  row, `min x 99999`. (On a negative word they part: the clip sends it to row 0, the wrap to row `x + 100000`.)
-/
import Idealize.ShloMosaic.Lib.ValueIdx
import Idealize.ShloMosaic.Lib.StableHlo.Predicate

namespace Cert.IndexWords

open Idealize.ShloMosaic Idealize.ShloMosaic.ValueIdx Idealize.ShloMosaic.StableHlo.Predicate

/-- A word that is non-negative as a signed integer is below `2 ^ 31`. -/
theorem toNat_lt_of_nonneg {x : BitVec 32} (h : 0 ≤ x.toInt) : x.toNat < 2 ^ 31 := by
  have hx := x.isLt
  rw [BitVec.toInt_eq_toNat_cond] at h
  split at h <;> omega

/-- Such a word reads the same signed and unsigned, as a natural number. -/
theorem toInt_toNat_of_lt {x : BitVec 32} (h : x.toNat < 2 ^ 31) : x.toInt.toNat = x.toNat := by
  rw [toInt_eq_toNat_of_lt h]; exact Int.toNat_natCast _

/-- The wrap of a non-negative word is the word: the comparison with zero fails. -/
theorem wrap_of_nonneg {x : BitVec 32} (h : x.toNat < 2 ^ 31) :
    Scalar.select (IntOp.cmpi .slt x 0#32) (IntOp.addi x 100000#32) x = x := by
  have hc : IntOp.cmpi .slt x 0#32 = 0#1 :=
    eq_zero_of_ne_one fun h1 => by
      have := (slt_iff_toNat (a := x) (b := 0#32) h (by decide)).mp h1
      simp at this
  rw [hc, select_zero]

/-- The signed maximum of zero and a non-negative word is the word. -/
theorem maxsi_zero_of_nonneg {x : BitVec 32} (h : x.toNat < 2 ^ 31) : IntOp.maxsi 0#32 x = x := by
  unfold IntOp.maxsi
  have hti : x.toInt = x.toNat := toInt_eq_toNat_of_lt h
  have h0 : (0#32 : BitVec 32).toInt = 0 := by decide
  split
  · rename_i hc
    simp only [BitVec.slt, hti, h0, decide_eq_true_eq] at hc
    omega
  · rfl

/-- The signed minimum of 99999 and a non-negative word has the value `min x 99999`. -/
theorem minsi_cap_toNat {x : BitVec 32} (h : x.toNat < 2 ^ 31) :
    (IntOp.minsi 99999#32 x).toNat = min x.toNat 99999 := by
  unfold IntOp.minsi
  have hti : x.toInt = x.toNat := toInt_eq_toNat_of_lt h
  have h9 : (99999#32 : BitVec 32).toInt = 99999 := by decide
  have h9n : (99999#32 : BitVec 32).toNat = 99999 := by decide
  split
  · rename_i hc
    simp only [BitVec.slt, hti, h9, decide_eq_true_eq] at hc
    rw [h9n]; omega
  · rename_i hc
    simp only [BitVec.slt, hti, h9, decide_eq_true_eq] at hc
    omega

/-- The clip of a non-negative word into `[0, 99999]` has the value `min x 99999`. -/
theorem clip_toNat {x : BitVec 32} (h : x.toNat < 2 ^ 31) :
    (IntOp.minsi 99999#32 (IntOp.maxsi 0#32 x)).toNat = min x.toNat 99999 := by
  rw [maxsi_zero_of_nonneg h, minsi_cap_toNat h]

/-- THE REFERENCE'S ROW: wrapped, then clamped by the gather, a non-negative index names row `min x 99999`. -/
theorem row_wrap {x : BitVec 32} (h : 0 ≤ x.toInt) :
    min (Scalar.select (IntOp.cmpi .slt x 0#32) (IntOp.addi x 100000#32) x).toInt.toNat (100000 - 1)
      = min x.toNat 99999 := by
  have hx := toNat_lt_of_nonneg h
  rw [wrap_of_nonneg hx, toInt_toNat_of_lt hx]

/-- THE KERNEL'S ROW: clipped, wrapped, then clamped by the gather, a non-negative index names the same row. -/
theorem row_clip_wrap {x : BitVec 32} (h : 0 ≤ x.toInt) :
    min (Scalar.select (IntOp.cmpi .slt (IntOp.minsi 99999#32 (IntOp.maxsi 0#32 x)) 0#32)
        (IntOp.addi (IntOp.minsi 99999#32 (IntOp.maxsi 0#32 x)) 100000#32)
        (IntOp.minsi 99999#32 (IntOp.maxsi 0#32 x))).toInt.toNat (100000 - 1)
      = min x.toNat 99999 := by
  have hx := toNat_lt_of_nonneg h
  have hc : (IntOp.minsi 99999#32 (IntOp.maxsi 0#32 x)).toNat = min x.toNat 99999 := clip_toNat hx
  have hc' : (IntOp.minsi 99999#32 (IntOp.maxsi 0#32 x)).toNat < 2 ^ 31 := by rw [hc]; omega
  rw [wrap_of_nonneg hc', toInt_toNat_of_lt hc', hc]
  omega

end Cert.IndexWords
-- ==== Proof.RefGather.lean ====
/-
  THE REFERENCE'S SIX GATHERED ARRAYS, READ AT AN INDEX. Each is a row gather from one of the two tables at an index array
  that has first been wrapped (`x + 100000` where `x < 0`) and given a trailing unit axis. Element `(b, w, e)` is the table at
  `(row, e)`, `row` the wrapped word at `(b, w)` read signed and clamped into `[0, 99999]`; when the index word is
  non-negative the wrap is the identity and the row is `min x 99999`, which `Spec.rowOf` names.
-/
import proofs.«409841_j49211735277727_3_alg».proof.Proof.Gen.ReferenceIdeal.Read
import proofs.«409841_j49211735277727_3_alg».proof.Proof.Spec
import proofs.«409841_j49211735277727_3_alg».proof.Proof.LibGatherRows
import proofs.«409841_j49211735277727_3_alg».proof.Proof.IndexWords

noncomputable section

namespace Cert.ReferenceIdeal.RefGather

open Cert.ReferenceIdeal Cert.ReferenceIdeal.Gen Cert.ReferenceIdeal.Read Idealize.ShloMosaic Idealize.ShloMosaic.TcCoe
  Idealize.ShloMosaic.ValueIdx Cert.Spec Cert.LibGatherRows Cert.IndexWords

variable (x0 x1 : (⟨S100000x128, .f32⟩ : BufTy).Contents (Elt Ideal)) (x2 : (⟨S1024x1, .i32⟩ : BufTy).Contents (Elt Ideal))
  (x3 x4 : (⟨S1024x5, .i32⟩ : BufTy).Contents (Elt Ideal))

theorem idxB5 (b : Fin 1024) : idx_main_v5 (ix3 b (0 : Fin 1) (0 : Fin 1)) = ix2 b (0 : Fin 1) := by
  funext a; match a with | ⟨0, _⟩ => rfl | ⟨1, _⟩ => rfl

/-- The reference's gather `%6` at `(b, 0, e)`: the table at the row its index word names. -/
theorem ref_v6_at (b : Fin 1024) (e : Fin 128) (h : 0 ≤ (x2 (ix2 b (0 : Fin 1))).toInt) :
    val_main_v6 (F := Ideal) x0 x2 (ix3 b (0 : Fin 1) e) = x0 (ix2 (rowOf (x2 (ix2 b (0 : Fin 1)))) e) := by
  unfold val_main_v6
  refine (gather_rows3_apply (N := 100000) (E := 128) (R := 1024) (C := 1) (by decide) Gen.gather_S100000x128_S1024x1x1_S1024x1x128_2_0_n_n_0_2_1128_wf x0
    (val_main_v5 (F := Ideal) x2) b (0 : Fin 1) e).trans ?_
  refine congrArg (fun r => x0 (ix2 r e)) (Fin.ext ?_)
  show min (val_main_v5 (F := Ideal) x2 (ix3 b (0 : Fin 1) (0 : Fin 1))).toInt.toNat (100000 - 1) = min (x2 (ix2 b (0 : Fin 1))).toNat 99999
  rw [val_main_v5_apply, idxB5, val_main_v4_apply, val_main_v1_apply, val_main_v3_apply, val_main_v0_apply,
    val_main_v2_apply, val_main_c_apply, val_main_c_0_apply]
  exact row_wrap h

theorem idxB12 (b : Fin 1024) : idx_main_v12 (ix3 b (0 : Fin 1) (0 : Fin 1)) = ix2 b (0 : Fin 1) := by
  funext a; match a with | ⟨0, _⟩ => rfl | ⟨1, _⟩ => rfl

/-- The reference's gather `%13` at `(b, 0, e)`: the table at the row its index word names. -/
theorem ref_v13_at (b : Fin 1024) (e : Fin 128) (h : 0 ≤ (x2 (ix2 b (0 : Fin 1))).toInt) :
    val_main_v13 (F := Ideal) x1 x2 (ix3 b (0 : Fin 1) e) = x1 (ix2 (rowOf (x2 (ix2 b (0 : Fin 1)))) e) := by
  unfold val_main_v13
  refine (gather_rows3_apply (N := 100000) (E := 128) (R := 1024) (C := 1) (by decide) Gen.gather_S100000x128_S1024x1x1_S1024x1x128_2_0_n_n_0_2_1128_wf x1
    (val_main_v12 (F := Ideal) x2) b (0 : Fin 1) e).trans ?_
  refine congrArg (fun r => x1 (ix2 r e)) (Fin.ext ?_)
  show min (val_main_v12 (F := Ideal) x2 (ix3 b (0 : Fin 1) (0 : Fin 1))).toInt.toNat (100000 - 1) = min (x2 (ix2 b (0 : Fin 1))).toNat 99999
  rw [val_main_v12_apply, idxB12, val_main_v11_apply, val_main_v8_apply, val_main_v10_apply, val_main_v7_apply,
    val_main_v9_apply, val_main_c_1_apply, val_main_c_2_apply]
  exact row_wrap h

theorem idxB19 (b : Fin 1024) (w : Fin 5) : idx_main_v19 (ix3 b w (0 : Fin 1)) = ix2 b w := by
  funext a; match a with | ⟨0, _⟩ => rfl | ⟨1, _⟩ => rfl

/-- The reference's gather `%20` at `(b, w, e)`: the table at the row its index word names. -/
theorem ref_v20_at (b : Fin 1024) (w : Fin 5) (e : Fin 128) (h : 0 ≤ (x3 (ix2 b w)).toInt) :
    val_main_v20 (F := Ideal) x0 x3 (ix3 b w e) = x0 (ix2 (rowOf (x3 (ix2 b w))) e) := by
  unfold val_main_v20
  refine (gather_rows3_apply (N := 100000) (E := 128) (R := 1024) (C := 5) (by decide) Gen.gather_S100000x128_S1024x5x1_S1024x5x128_2_0_n_n_0_2_1128_wf x0
    (val_main_v19 (F := Ideal) x3) b w e).trans ?_
  refine congrArg (fun r => x0 (ix2 r e)) (Fin.ext ?_)
  show min (val_main_v19 (F := Ideal) x3 (ix3 b w (0 : Fin 1))).toInt.toNat (100000 - 1) = min (x3 (ix2 b w)).toNat 99999
  rw [val_main_v19_apply, idxB19, val_main_v18_apply, val_main_v15_apply, val_main_v17_apply, val_main_v14_apply,
    val_main_v16_apply, val_main_c_3_apply, val_main_c_4_apply]
  exact row_wrap h

theorem idxB26 (b : Fin 1024) (w : Fin 5) : idx_main_v26 (ix3 b w (0 : Fin 1)) = ix2 b w := by
  funext a; match a with | ⟨0, _⟩ => rfl | ⟨1, _⟩ => rfl

/-- The reference's gather `%27` at `(b, w, e)`: the table at the row its index word names. -/
theorem ref_v27_at (b : Fin 1024) (w : Fin 5) (e : Fin 128) (h : 0 ≤ (x3 (ix2 b w)).toInt) :
    val_main_v27 (F := Ideal) x1 x3 (ix3 b w e) = x1 (ix2 (rowOf (x3 (ix2 b w))) e) := by
  unfold val_main_v27
  refine (gather_rows3_apply (N := 100000) (E := 128) (R := 1024) (C := 5) (by decide) Gen.gather_S100000x128_S1024x5x1_S1024x5x128_2_0_n_n_0_2_1128_wf x1
    (val_main_v26 (F := Ideal) x3) b w e).trans ?_
  refine congrArg (fun r => x1 (ix2 r e)) (Fin.ext ?_)
  show min (val_main_v26 (F := Ideal) x3 (ix3 b w (0 : Fin 1))).toInt.toNat (100000 - 1) = min (x3 (ix2 b w)).toNat 99999
  rw [val_main_v26_apply, idxB26, val_main_v25_apply, val_main_v22_apply, val_main_v24_apply, val_main_v21_apply,
    val_main_v23_apply, val_main_c_5_apply, val_main_c_6_apply]
  exact row_wrap h

theorem idxB33 (b : Fin 1024) (w : Fin 5) : idx_main_v33 (ix3 b w (0 : Fin 1)) = ix2 b w := by
  funext a; match a with | ⟨0, _⟩ => rfl | ⟨1, _⟩ => rfl

/-- The reference's gather `%34` at `(b, w, e)`: the table at the row its index word names. -/
theorem ref_v34_at (b : Fin 1024) (w : Fin 5) (e : Fin 128) (h : 0 ≤ (x4 (ix2 b w)).toInt) :
    val_main_v34 (F := Ideal) x0 x4 (ix3 b w e) = x0 (ix2 (rowOf (x4 (ix2 b w))) e) := by
  unfold val_main_v34
  refine (gather_rows3_apply (N := 100000) (E := 128) (R := 1024) (C := 5) (by decide) Gen.gather_S100000x128_S1024x5x1_S1024x5x128_2_0_n_n_0_2_1128_wf x0
    (val_main_v33 (F := Ideal) x4) b w e).trans ?_
  refine congrArg (fun r => x0 (ix2 r e)) (Fin.ext ?_)
  show min (val_main_v33 (F := Ideal) x4 (ix3 b w (0 : Fin 1))).toInt.toNat (100000 - 1) = min (x4 (ix2 b w)).toNat 99999
  rw [val_main_v33_apply, idxB33, val_main_v32_apply, val_main_v29_apply, val_main_v31_apply, val_main_v28_apply,
    val_main_v30_apply, val_main_c_7_apply, val_main_c_8_apply]
  exact row_wrap h

theorem idxB40 (b : Fin 1024) (w : Fin 5) : idx_main_v40 (ix3 b w (0 : Fin 1)) = ix2 b w := by
  funext a; match a with | ⟨0, _⟩ => rfl | ⟨1, _⟩ => rfl

/-- The reference's gather `%41` at `(b, w, e)`: the table at the row its index word names. -/
theorem ref_v41_at (b : Fin 1024) (w : Fin 5) (e : Fin 128) (h : 0 ≤ (x4 (ix2 b w)).toInt) :
    val_main_v41 (F := Ideal) x1 x4 (ix3 b w e) = x1 (ix2 (rowOf (x4 (ix2 b w))) e) := by
  unfold val_main_v41
  refine (gather_rows3_apply (N := 100000) (E := 128) (R := 1024) (C := 5) (by decide) Gen.gather_S100000x128_S1024x5x1_S1024x5x128_2_0_n_n_0_2_1128_wf x1
    (val_main_v40 (F := Ideal) x4) b w e).trans ?_
  refine congrArg (fun r => x1 (ix2 r e)) (Fin.ext ?_)
  show min (val_main_v40 (F := Ideal) x4 (ix3 b w (0 : Fin 1))).toInt.toNat (100000 - 1) = min (x4 (ix2 b w)).toNat 99999
  rw [val_main_v40_apply, idxB40, val_main_v39_apply, val_main_v36_apply, val_main_v38_apply, val_main_v35_apply,
    val_main_v37_apply, val_main_c_9_apply, val_main_c_10_apply]
  exact row_wrap h

end Cert.ReferenceIdeal.RefGather

end
-- ==== Proof.KernelBody.lean ====
/-
  WHAT THE KERNEL BODY STORES, read at one column. At a grid point the body holds a block of 128 examples: the target
  rows' means and variances (`x0`, `x1`: 128 × 128), the positive contexts' (`x2`, `x3`: 128 × 5 × 128) and the
  negative contexts' (`x4`, `x5`). It views each target row as a 128 × 1 × 128 array, repeats it along the five contexts,
  forms the lanes' terms, sums the 128 lanes, halves, takes the hinge, sums the five contexts, and stores the 128
  results as a 1 × 128 row. Column `r` of that row is therefore `Spec.rowLoss` of row `r` of the six blocks. The steps
  are the layout operations read at an index (a view with a unit axis; a repeat along it), the two lane sums as finite
  sums over the summed coordinate, and the pointwise operations, which read through definitionally.
-/
import proofs.«409841_j49211735277727_3_alg».proof.Proof.Gen.KernelIdeal.Frame
import proofs.«409841_j49211735277727_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Spec

/-! ## The layout operations at an index -/

/-- A 128 × 128 block viewed 128 × 1 × 128 reads `(r, 0, e)` at `(r, e)`: the two positions are the same in row-major order. -/
theorem viewRow_apply (v : FVec Ideal S128x128 .f32) (r : Fin 128) (e : Fin 128) :
    shapeCast S128x1x128 v shapeCasts_S128x128_S128x1x128 (ix3 r (0 : Fin 1) e) = v (ix2 r e) :=
  shapeCast_apply v shapeCasts_S128x128_S128x1x128 (ix3 r (0 : Fin 1) e) (ix2 r e) (by
    rw [Shape.rowMajor_val_two, Shape.rowMajor_val_three]
    show r.val * 128 + e.val = (r.val * 1 + 0) * 128 + e.val
    omega)

/-- A 128 × 1 × 128 array repeated along its unit axis reads `(r, w, e)` at `(r, 0, e)`. -/
theorem repeat_apply (u : FVec Ideal S128x1x128 .f32) (r : Fin 128) (w : Fin 5) (e : Fin 128) :
    broadcastTo S128x5x128 u broadcasts_S128x1x128_S128x5x128 (ix3 r w e) = u (ix3 r (0 : Fin 1) e) :=
  broadcastTo_apply u broadcasts_S128x1x128_S128x5x128 (ix3 r w e) (ix3 r (0 : Fin 1) e) (fun a => match a with
    | ⟨0, _⟩ => by show r.val = if (128 : Nat) = 1 then 0 else r.val; rw [if_neg (by decide)]
    | ⟨1, _⟩ => by show 0 = if (1 : Nat) = 1 then 0 else w.val; rw [if_pos rfl]
    | ⟨2, _⟩ => by show e.val = if (128 : Nat) = 1 then 0 else e.val; rw [if_neg (by decide)])

/-- The sum over the 128 lanes of a 128 × 5 × 128 array, at `(r, w)`. -/
theorem laneSum_apply (v : FVec Ideal S128x5x128 .f32) (hφ : FKind.Formats .f32)
    (hacc : (0x00000000#32 : BitVec 32) = FKind.add.neutral .f32 hφ) (r : Fin 128) (w : Fin 5) :
    multiReduction .add [2] S128x5 v 0x00000000#32 reduces_S128x5x128_S128x5 hφ hacc (ix2 r w)
      = ∑ e : Fin 128, v (ix3 r w e) := by
  refine (Ideal.multiReduction_add_single v 0x00000000#32 reduces_S128x5x128_S128x5 hφ hacc (ix2 r w)).trans ?_
  exact Finset.sum_congr rfl fun k _ => congrArg v (funext fun a => Fin.ext (by
    match a with
    | ⟨0, _⟩ => rfl
    | ⟨1, _⟩ => rfl
    | ⟨2, _⟩ => rfl))

/-- The sum over the five contexts of a 128 × 5 array, at `r`. -/
theorem pairSum_apply (v : FVec Ideal S128x5 .f32) (hφ : FKind.Formats .f32)
    (hacc : (0x00000000#32 : BitVec 32) = FKind.add.neutral .f32 hφ) (r : Fin 128) :
    multiReduction .add [1] S128 v 0x00000000#32 reduces_S128x5_S128 hφ hacc (ix1 r)
      = ∑ w : Fin 5, v (ix2 r w) := by
  refine (Ideal.multiReduction_add_single v 0x00000000#32 reduces_S128x5_S128 hφ hacc (ix1 r)).trans ?_
  exact Finset.sum_congr rfl fun k _ => congrArg v (funext fun a => Fin.ext (by
    match a with
    | ⟨0, _⟩ => rfl
    | ⟨1, _⟩ => rfl))

/-- A vector of 128 stored as a 1 × 128 row reads `(0, r)` at `r`. -/
theorem asRow_apply (v : FVec Ideal S128 .f32) (r : Fin 128) :
    shapeCast S1x128 v shapeCasts_S128_S1x128 (ix2 (0 : Fin 1) r) = v (ix1 r) :=
  shapeCast_apply v shapeCasts_S128_S1x128 (ix2 (0 : Fin 1) r) (ix1 r) (by
    rw [Shape.rowMajor_val_one, Shape.rowMajor_val_two]
    show r.val = 0 * 128 + r.val
    omega)

/-! ## One lane's term, and a row's divergence -/

/-- The body's expression for the lanes' terms — target mean `mt` and variance `st` as 128 × 1 × 128 arrays repeated along the
    contexts, `lst` the target variance's logarithm likewise, a context's mean `mc` and variance `sc` — at `(r, w, e)`. -/
theorem term_apply (mt st lst : FVec Ideal S128x1x128 .f32) (mc sc : FVec Ideal S128x5x128 .f32)
    (hl : ∀ i, lst i = Ideal.log (st i)) (r : Fin 128) (w : Fin 5) (e : Fin 128) :
    subf (addf (subf (addf (divf (broadcastTo S128x5x128 st broadcasts_S128x1x128_S128x5x128) sc)
        (divf (mulf (subf mc (broadcastTo S128x5x128 mt broadcasts_S128x1x128_S128x5x128))
          (subf mc (broadcastTo S128x5x128 mt broadcasts_S128x1x128_S128x5x128))) sc))
        (broadcast S128x5x128 (Scalar.ofBits .f32 0x3F800000#32))) (log sc))
      (broadcastTo S128x5x128 lst broadcasts_S128x1x128_S128x5x128) (ix3 r w e)
      = term (mt (ix3 r (0 : Fin 1) e)) (st (ix3 r (0 : Fin 1) e)) (mc (ix3 r w e)) (sc (ix3 r w e)) := by
  show Ideal.div (broadcastTo S128x5x128 st broadcasts_S128x1x128_S128x5x128 (ix3 r w e)) (sc (ix3 r w e))
      + Ideal.div ((mc (ix3 r w e) - broadcastTo S128x5x128 mt broadcasts_S128x1x128_S128x5x128 (ix3 r w e))
        * (mc (ix3 r w e) - broadcastTo S128x5x128 mt broadcasts_S128x1x128_S128x5x128 (ix3 r w e))) (sc (ix3 r w e))
      - Ideal.ofBits .f32 0x3F800000#32 + Ideal.log (sc (ix3 r w e))
      - broadcastTo S128x5x128 lst broadcasts_S128x1x128_S128x5x128 (ix3 r w e) = _
  rw [repeat_apply st r w e, repeat_apply mt r w e, repeat_apply lst r w e, hl]
  rfl

/-- Half the lane sum of the body's terms at `(r, w)` is the divergence of row `r` of the target from row `(r, w)` of the context. -/
theorem halfLaneSum_apply (mt st lst : FVec Ideal S128x1x128 .f32) (mc sc : FVec Ideal S128x5x128 .f32)
    (hl : ∀ i, lst i = Ideal.log (st i)) (hφ : FKind.Formats .f32)
    (hacc : (0x00000000#32 : BitVec 32) = FKind.add.neutral .f32 hφ) (r : Fin 128) (w : Fin 5) :
    mulf (broadcast S128x5 (Scalar.ofBits .f32 0x3F000000#32))
      (multiReduction .add [2] S128x5
        (subf (addf (subf (addf (divf (broadcastTo S128x5x128 st broadcasts_S128x1x128_S128x5x128) sc)
          (divf (mulf (subf mc (broadcastTo S128x5x128 mt broadcasts_S128x1x128_S128x5x128))
            (subf mc (broadcastTo S128x5x128 mt broadcasts_S128x1x128_S128x5x128))) sc))
          (broadcast S128x5x128 (Scalar.ofBits .f32 0x3F800000#32))) (log sc))
          (broadcastTo S128x5x128 lst broadcasts_S128x1x128_S128x5x128))
        0x00000000#32 reduces_S128x5x128_S128x5 hφ hacc) (ix2 r w)
      = klRow (fun e => mt (ix3 r (0 : Fin 1) e)) (fun e => st (ix3 r (0 : Fin 1) e))
          (fun e => mc (ix3 r w e)) (fun e => sc (ix3 r w e)) := by
  show Ideal.ofBits .f32 0x3F000000#32 * multiReduction .add [2] S128x5 _ 0x00000000#32 reduces_S128x5x128_S128x5 hφ hacc (ix2 r w) = _
  rw [laneSum_apply]
  unfold klRow
  exact congrArg (half * ·) (Finset.sum_congr rfl fun e _ => term_apply mt st lst mc sc hl r w e)

/-- The hinge of two 128 × 5 arrays of divergences at `(r, w)`. -/
theorem hinge_apply (klp kln : FVec Ideal S128x5 .f32) (r : Fin 128) (w : Fin 5) :
    maximumf (broadcast S128x5 (Scalar.ofBits .f32 0x00000000#32))
      (addf (subf (broadcast S128x5 (Scalar.ofBits .f32 0x3DCCCCCD#32)) klp) kln) (ix2 r w)
      = max 0 (margin - klp (ix2 r w) + kln (ix2 r w)) := by
  show max (Ideal.ofBits .f32 0x00000000#32) (Ideal.ofBits .f32 0x3DCCCCCD#32 - klp (ix2 r w) + kln (ix2 r w)) = _
  rw [Ideal.ofBits_zero_f32]

/-! ## The stored row at a column -/

theorem hz2 : (![0, 0] : Fin 2 → Nat) = fun _ => 0 := funext fun a => by fin_cases a <;> rfl
theorem hz3 : (![0, 0, 0] : Fin 3 → Nat) = fun _ => 0 := funext fun a => by fin_cases a <;> rfl

/-- Row `r` of a divergence reads the blocks' rows `r`: the target's view with a unit axis reads `(r, e)`, a context's
    identity view reads `(r, w, e)`. -/
theorem klRow_blocks (x0 x1 : Vec Ideal S128x128 .f32) (xm xs : Vec Ideal S128x5x128 .f32) (r : Fin 128) (w : Fin 5) :
    klRow (fun e => k0_pay2 x0 (ix3 r (0 : Fin 1) e)) (fun e => k0_pay3 x1 (ix3 r (0 : Fin 1) e))
        (fun e => shapeCast S128x5x128 xm shapeCasts_S128x5x128_S128x5x128 (ix3 r w e))
        (fun e => shapeCast S128x5x128 xs shapeCasts_S128x5x128_S128x5x128 (ix3 r w e))
      = klRow (fun e => x0 (ix2 r e)) (fun e => x1 (ix2 r e)) (fun e => xm (ix3 r w e)) (fun e => xs (ix3 r w e)) := by
  have h2 : ∀ e, k0_pay2 x0 (ix3 r (0 : Fin 1) e) = x0 (ix2 r e) := fun e => by
    unfold k0_pay2; rw [shapeCast_self]; exact viewRow_apply x0 r e
  have h3 : ∀ e, k0_pay3 x1 (ix3 r (0 : Fin 1) e) = x1 (ix2 r e) := fun e => by
    unfold k0_pay3; rw [shapeCast_self]; exact viewRow_apply x1 r e
  simp only [h2, h3, shapeCast_self]

/-- The positive side: the body's `k0_pay5` at `(r, w)`. -/
theorem klPos_apply (x0 x1 : Vec Ideal S128x128 .f32) (x2 x3 : Vec Ideal S128x5x128 .f32) (r : Fin 128) (w : Fin 5) :
    k0_pay5 x0 x1 x2 x3 (ix2 r w)
      = klRow (fun e => x0 (ix2 r e)) (fun e => x1 (ix2 r e)) (fun e => x2 (ix3 r w e)) (fun e => x3 (ix3 r w e)) :=
  (halfLaneSum_apply (k0_pay2 x0) (k0_pay3 x1) (k0_pay4 x1) (shapeCast S128x5x128 x2 shapeCasts_S128x5x128_S128x5x128)
    (shapeCast S128x5x128 x3 shapeCasts_S128x5x128_S128x5x128) (fun _ => rfl) (.inl rfl) rfl r w).trans
    (klRow_blocks x0 x1 x2 x3 r w)

/-- THE STORED ROW AT COLUMN `r` is the loss of example `r` of the block. -/
theorem out0_6_apply (x0 x1 : Vec Ideal S128x128 .f32) (x2 x3 x4 x5 : Vec Ideal S128x5x128 .f32) (r : Fin 128) :
    out0_6 x0 x1 x2 x3 x4 x5 (ix2 (0 : Fin 1) r)
      = rowLoss (fun e => x0 (ix2 r e)) (fun e => x1 (ix2 r e)) (fun w e => x2 (ix3 r w e)) (fun w e => x3 (ix3 r w e))
          (fun w e => x4 (ix3 r w e)) (fun w e => x5 (ix3 r w e)) := by
  unfold out0_6
  rw [View.canon_unit_zero hz2]
  simp only [View.ld_unit_zero (S := S128x128) hz2, View.ld_unit_zero (S := S128x5x128) hz3]
  unfold k0_pay1
  refine (asRow_apply _ r).trans ?_
  refine (pairSum_apply _ (.inl rfl) rfl r).trans ?_
  unfold rowLoss
  refine Finset.sum_congr rfl fun w _ => ?_
  refine (hinge_apply _ _ r w).trans ?_
  refine congrArg₂ (fun a b : EReal => max 0 (margin - a + b)) (klPos_apply x0 x1 x2 x3 r w) ?_
  exact (halfLaneSum_apply (k0_pay2 x0) (k0_pay3 x1) (k0_pay4 x1) (shapeCast S128x5x128 x4 shapeCasts_S128x5x128_S128x5x128)
    (k0_pay6 x5) (fun _ => rfl) (.inl rfl) rfl r w).trans (klRow_blocks x0 x1 x4 x5 r w)

end Cert.KernelIdeal.Body

end
-- ==== Proof.KernelValue.lean ====
/-
  FROM THE BLOCKS TO THE ARRAY. The region runs at 8 grid points. At point `t` each of the six gathered arrays is staged
  by its block of rows `128 t … 128 t + 127` (the index maps send `t` to block `(t, 0)` or `(t, 0, 0)`), and the output's
  block is columns `128 t … 128 t + 127` of a 1 × 1024 row (index map `(0, t)`). A block's coordinate is its index times
  its size plus the coordinate inside it, so column `r` of what point `t` writes back is the loss of example `128 t + r`
  read off the six arrays. The 8 output blocks tile the row — column `j` lies in the block of point `j / 128` — hence after
  the run the output array holds, at every column `b`, the loss of example `b`.
-/
import proofs.«409841_j49211735277727_3_alg».proof.Proof.Gen.KernelIdeal.Frame
import proofs.«409841_j49211735277727_3_alg».proof.Proof.KernelBody
import proofs.«409841_j49211735277727_3_alg».proof.Proof.Spec
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.KValue

open Cert.KernelIdeal Cert.KernelIdeal.Gen Cert.KernelIdeal.Body Idealize.ShloMosaic Idealize.ShloMosaic.TcCoe
  Idealize.ShloMosaic.ValueIdx Idealize.SL.Sem Cert.Spec
open Idealize.ShloMosaic.Pipeline (Dat)

variable (m : (ℓ : Loc nD τ sig) → Buf (Elt Ideal) ℓ) (ρ : Dev nD → PrngReg)

/-! ## The six arrays the region stages, at their literal types -/

/-- The gathered target means, as the region finds them. -/
abbrev mtArr (c : Dev nD) : Vec Ideal S1024x128 .f32 := V m c main_v10
/-- The gathered target variances. -/
abbrev stArr (c : Dev nD) : Vec Ideal S1024x128 .f32 := V m c main_v17
/-- The gathered positive contexts' means. -/
abbrev mpArr (c : Dev nD) : Vec Ideal S1024x5x128 .f32 := V m c main_v24
/-- The gathered positive contexts' variances. -/
abbrev spArr (c : Dev nD) : Vec Ideal S1024x5x128 .f32 := V m c main_v31
/-- The gathered negative contexts' means. -/
abbrev mnArr (c : Dev nD) : Vec Ideal S1024x5x128 .f32 := V m c main_v38
/-- The gathered negative contexts' variances. -/
abbrev snArr (c : Dev nD) : Vec Ideal S1024x5x128 .f32 := V m c main_v45

/-- The loss of example `b`, read off the six arrays. -/
def rowAt (c : Dev nD) (b : Fin 1024) : EReal :=
  rowLoss (fun e => mtArr m c (ix2 b e)) (fun e => stArr m c (ix2 b e)) (fun w e => mpArr m c (ix3 b w e))
    (fun w e => spArr m c (ix3 b w e)) (fun w e => mnArr m c (ix3 b w e)) (fun w e => snArr m c (ix3 b w e))

/-- What the output array ends holding: at column `b` the loss of example `b`. -/
def G6 (c : Dev nD) : Vec Ideal S1x1024 .f32 := fun i => rowAt m c ⟨(i 1).val, idx2_lt1 i⟩

/-- An example's loss depends on its rows only through their entries. -/
theorem rowLoss_congr {mt st mt' st' : Fin 128 → EReal} {mp sp mn sn mp' sp' mn' sn' : Fin 5 → Fin 128 → EReal}
    (h1 : ∀ e, mt e = mt' e) (h2 : ∀ e, st e = st' e) (h3 : ∀ w e, mp w e = mp' w e) (h4 : ∀ w e, sp w e = sp' w e)
    (h5 : ∀ w e, mn w e = mn' w e) (h6 : ∀ w e, sn w e = sn' w e) :
    rowLoss mt st mp sp mn sn = rowLoss mt' st' mp' sp' mn' sn' := by
  obtain rfl : mt = mt' := funext h1
  obtain rfl : st = st' := funext h2
  obtain rfl : mp = mp' := funext fun w => funext (h3 w)
  obtain rfl : sp = sp' := funext fun w => funext (h4 w)
  obtain rfl : mn = mn' := funext fun w => funext (h5 w)
  obtain rfl : sn = sn' := funext fun w => funext (h6 w)
  rfl

/-! ## The index maps over the grid -/

/-- The printed index maps, decided over the 8 points: every input's block index on its row axis is the output's on
    its column axis, every other block index is 0. -/
theorem idx_facts : ∀ t : Fin cfg0.N,
    win0_0.index t (0 : Fin 2) = win0_6.index t (1 : Fin 2) ∧ win0_0.index t (1 : Fin 2) = 0
    ∧ win0_1.index t (0 : Fin 2) = win0_6.index t (1 : Fin 2) ∧ win0_1.index t (1 : Fin 2) = 0
    ∧ win0_2.index t (0 : Fin 3) = win0_6.index t (1 : Fin 2) ∧ win0_2.index t (1 : Fin 3) = 0 ∧ win0_2.index t (2 : Fin 3) = 0
    ∧ win0_3.index t (0 : Fin 3) = win0_6.index t (1 : Fin 2) ∧ win0_3.index t (1 : Fin 3) = 0 ∧ win0_3.index t (2 : Fin 3) = 0
    ∧ win0_4.index t (0 : Fin 3) = win0_6.index t (1 : Fin 2) ∧ win0_4.index t (1 : Fin 3) = 0 ∧ win0_4.index t (2 : Fin 3) = 0
    ∧ win0_5.index t (0 : Fin 3) = win0_6.index t (1 : Fin 2) ∧ win0_5.index t (1 : Fin 3) = 0 ∧ win0_5.index t (2 : Fin 3) = 0
    ∧ win0_6.index t (0 : Fin 2) = 0 ∧ win0_6.index t (1 : Fin 2) ≤ 7 :=
  (by decide +kernel : ∀ t : Fin grid0.N, _)

/-- Every block of the output row is some point's. -/
theorem idx_onto : ∀ q : Fin 8, ∃ t : Fin cfg0.N, win0_6.index t = ![0, q.val] :=
  (by decide +kernel : ∀ q : Fin 8, ∃ t : Fin grid0.N, win0_6.index t = ![0, q.val])

/-! ## The input blocks, read off the arrays -/

/-- Input window 0's block at point `t` reads rows `128 t + r` of its array. -/
theorem blk0_read (c : Dev nD) (t : Fin cfg0.N) (r e : Fin 128) (b : Fin 1024)
    (hb : b.val = win0_6.index t (1 : Fin 2) * 128 + r.val) :
    (iblk m c 0 t : Vec Ideal S128x128 .f32) (ix2 r e) = mtArr m c (ix2 b e) := by
  obtain ⟨a0, a1, b0, b1, c0, c1, c2, d0, d1, d2, e0, e1, e2, f0, f1, f2, g0, g1⟩ := idx_facts t
  show V m c main_v10 (((cfg0.win 0).blk t).view.emb (ix2 r e)) = V m c main_v10 (ix2 b e)
  refine congrArg (V m c main_v10) (funext fun a => Fin.ext ?_)
  match a with
  | ⟨0, _⟩ => show win0_0.index t (0 : Fin 2) * 128 + 1 * r.val = b.val; omega
  | ⟨1, _⟩ => show win0_0.index t (1 : Fin 2) * 128 + 1 * e.val = e.val; omega
/-- Input window 1's block at point `t` reads rows `128 t + r` of its array. -/
theorem blk1_read (c : Dev nD) (t : Fin cfg0.N) (r e : Fin 128) (b : Fin 1024)
    (hb : b.val = win0_6.index t (1 : Fin 2) * 128 + r.val) :
    (iblk m c 1 t : Vec Ideal S128x128 .f32) (ix2 r e) = stArr m c (ix2 b e) := by
  obtain ⟨a0, a1, b0, b1, c0, c1, c2, d0, d1, d2, e0, e1, e2, f0, f1, f2, g0, g1⟩ := idx_facts t
  show V m c main_v17 (((cfg0.win 1).blk t).view.emb (ix2 r e)) = V m c main_v17 (ix2 b e)
  refine congrArg (V m c main_v17) (funext fun a => Fin.ext ?_)
  match a with
  | ⟨0, _⟩ => show win0_1.index t (0 : Fin 2) * 128 + 1 * r.val = b.val; omega
  | ⟨1, _⟩ => show win0_1.index t (1 : Fin 2) * 128 + 1 * e.val = e.val; omega
/-- Input window 2's block at point `t` reads rows `128 t + r` of its array. -/
theorem blk2_read (c : Dev nD) (t : Fin cfg0.N) (r : Fin 128) (w : Fin 5) (e : Fin 128) (b : Fin 1024)
    (hb : b.val = win0_6.index t (1 : Fin 2) * 128 + r.val) :
    (iblk m c 2 t : Vec Ideal S128x5x128 .f32) (ix3 r w e) = mpArr m c (ix3 b w e) := by
  obtain ⟨a0, a1, b0, b1, c0, c1, c2, d0, d1, d2, e0, e1, e2, f0, f1, f2, g0, g1⟩ := idx_facts t
  show V m c main_v24 (((cfg0.win 2).blk t).view.emb (ix3 r w e)) = V m c main_v24 (ix3 b w e)
  refine congrArg (V m c main_v24) (funext fun a => Fin.ext ?_)
  match a with
  | ⟨0, _⟩ => show win0_2.index t (0 : Fin 3) * 128 + 1 * r.val = b.val; omega
  | ⟨1, _⟩ => show win0_2.index t (1 : Fin 3) * 5 + 1 * w.val = w.val; omega
  | ⟨2, _⟩ => show win0_2.index t (2 : Fin 3) * 128 + 1 * e.val = e.val; omega
/-- Input window 3's block at point `t` reads rows `128 t + r` of its array. -/
theorem blk3_read (c : Dev nD) (t : Fin cfg0.N) (r : Fin 128) (w : Fin 5) (e : Fin 128) (b : Fin 1024)
    (hb : b.val = win0_6.index t (1 : Fin 2) * 128 + r.val) :
    (iblk m c 3 t : Vec Ideal S128x5x128 .f32) (ix3 r w e) = spArr m c (ix3 b w e) := by
  obtain ⟨a0, a1, b0, b1, c0, c1, c2, d0, d1, d2, e0, e1, e2, f0, f1, f2, g0, g1⟩ := idx_facts t
  show V m c main_v31 (((cfg0.win 3).blk t).view.emb (ix3 r w e)) = V m c main_v31 (ix3 b w e)
  refine congrArg (V m c main_v31) (funext fun a => Fin.ext ?_)
  match a with
  | ⟨0, _⟩ => show win0_3.index t (0 : Fin 3) * 128 + 1 * r.val = b.val; omega
  | ⟨1, _⟩ => show win0_3.index t (1 : Fin 3) * 5 + 1 * w.val = w.val; omega
  | ⟨2, _⟩ => show win0_3.index t (2 : Fin 3) * 128 + 1 * e.val = e.val; omega
/-- Input window 4's block at point `t` reads rows `128 t + r` of its array. -/
theorem blk4_read (c : Dev nD) (t : Fin cfg0.N) (r : Fin 128) (w : Fin 5) (e : Fin 128) (b : Fin 1024)
    (hb : b.val = win0_6.index t (1 : Fin 2) * 128 + r.val) :
    (iblk m c 4 t : Vec Ideal S128x5x128 .f32) (ix3 r w e) = mnArr m c (ix3 b w e) := by
  obtain ⟨a0, a1, b0, b1, c0, c1, c2, d0, d1, d2, e0, e1, e2, f0, f1, f2, g0, g1⟩ := idx_facts t
  show V m c main_v38 (((cfg0.win 4).blk t).view.emb (ix3 r w e)) = V m c main_v38 (ix3 b w e)
  refine congrArg (V m c main_v38) (funext fun a => Fin.ext ?_)
  match a with
  | ⟨0, _⟩ => show win0_4.index t (0 : Fin 3) * 128 + 1 * r.val = b.val; omega
  | ⟨1, _⟩ => show win0_4.index t (1 : Fin 3) * 5 + 1 * w.val = w.val; omega
  | ⟨2, _⟩ => show win0_4.index t (2 : Fin 3) * 128 + 1 * e.val = e.val; omega
/-- Input window 5's block at point `t` reads rows `128 t + r` of its array. -/
theorem blk5_read (c : Dev nD) (t : Fin cfg0.N) (r : Fin 128) (w : Fin 5) (e : Fin 128) (b : Fin 1024)
    (hb : b.val = win0_6.index t (1 : Fin 2) * 128 + r.val) :
    (iblk m c 5 t : Vec Ideal S128x5x128 .f32) (ix3 r w e) = snArr m c (ix3 b w e) := by
  obtain ⟨a0, a1, b0, b1, c0, c1, c2, d0, d1, d2, e0, e1, e2, f0, f1, f2, g0, g1⟩ := idx_facts t
  show V m c main_v45 (((cfg0.win 5).blk t).view.emb (ix3 r w e)) = V m c main_v45 (ix3 b w e)
  refine congrArg (V m c main_v45) (funext fun a => Fin.ext ?_)
  match a with
  | ⟨0, _⟩ => show win0_5.index t (0 : Fin 3) * 128 + 1 * r.val = b.val; omega
  | ⟨1, _⟩ => show win0_5.index t (1 : Fin 3) * 5 + 1 * w.val = w.val; omega
  | ⟨2, _⟩ => show win0_5.index t (2 : Fin 3) * 128 + 1 * e.val = e.val; omega

/-! ## What a point writes back, the cover, the array -/

/-- Every index of a 1 × 128 block is `(0, r)`. -/
theorem eq_row (j : S1x128.Idx) : j = ix2 (0 : Fin 1) ⟨(j 1).val, idx2_lt1 j⟩ := by
  funext a
  match a with
  | ⟨0, _⟩ => exact Fin.ext (by have := idx2_lt0 j; show (j 0).val = 0; omega)
  | ⟨1, _⟩ => rfl

/-- WHAT POINT `t` WRITES BACK is block `t` of `G6`. -/
theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  funext j
  obtain ⟨a0, a1, b0, b1, c0, c1, c2, d0, d1, d2, e0, e1, e2, f0, f1, f2, g0, g1⟩ := idx_facts t
  have hj : (j 1).val < 128 := (j 1).isLt
  show out0_6 (iblk m c 0 t) (iblk m c 1 t) (iblk m c 2 t) (iblk m c 3 t) (iblk m c 4 t) (iblk m c 5 t) j
    = rowAt m c ⟨win0_6.index t (1 : Fin 2) * 128 + 1 * (j 1).val, by omega⟩
  refine (congrArg (out0_6 (iblk m c 0 t) (iblk m c 1 t) (iblk m c 2 t) (iblk m c 3 t) (iblk m c 4 t) (iblk m c 5 t)) (eq_row j)).trans ?_
  refine (out0_6_apply (iblk m c 0 t) (iblk m c 1 t) (iblk m c 2 t) (iblk m c 3 t) (iblk m c 4 t) (iblk m c 5 t) ⟨(j 1).val, idx2_lt1 j⟩).trans ?_
  unfold rowAt
  exact rowLoss_congr
    (fun e => blk0_read m c t _ e _ (by show win0_6.index t (1 : Fin 2) * 128 + 1 * (j 1).val = win0_6.index t (1 : Fin 2) * 128 + (j 1).val; omega))
    (fun e => blk1_read m c t _ e _ (by show win0_6.index t (1 : Fin 2) * 128 + 1 * (j 1).val = win0_6.index t (1 : Fin 2) * 128 + (j 1).val; omega))
    (fun w e => blk2_read m c t _ w e _ (by show win0_6.index t (1 : Fin 2) * 128 + 1 * (j 1).val = win0_6.index t (1 : Fin 2) * 128 + (j 1).val; omega))
    (fun w e => blk3_read m c t _ w e _ (by show win0_6.index t (1 : Fin 2) * 128 + 1 * (j 1).val = win0_6.index t (1 : Fin 2) * 128 + (j 1).val; omega))
    (fun w e => blk4_read m c t _ w e _ (by show win0_6.index t (1 : Fin 2) * 128 + 1 * (j 1).val = win0_6.index t (1 : Fin 2) * 128 + (j 1).val; omega))
    (fun w e => blk5_read m c t _ w e _ (by show win0_6.index t (1 : Fin 2) * 128 + 1 * (j 1).val = win0_6.index t (1 : Fin 2) * 128 + (j 1).val; omega))

/-- An index of the output row is in point `t`'s block iff each coordinate is in the block's range on its axis. -/
theorem mem_blk6 (t : Fin cfg0.N) (i : S1x1024.Idx) :
    i ∈ ((cfg0.win 6).blk t).view.set ↔ ∀ a : Fin 2, win0_6.index t a * S1x128.size a ≤ (i a).val
      ∧ (i a).val < win0_6.index t a * S1x128.size a + S1x128.size a := by
  show i ∈ ((View.whole main_v46).slice (win0_6.rect t)).set ↔ _
  rw [View.set_slice_whole, Rect.mem_set_unit]
  exact Iff.rfl

/-- The 8 blocks tile the row: column `j` is in the block of the point whose block index is `j / 128`. -/
theorem cover6 (i : S1x1024.Idx) :
    ∃ t : Fin cfg0.N, (cfg0.win 6).flush t = true ∧ i ∈ ((cfg0.win 6).blk t).view.set := by
  have hi0 : (i 0).val < 1 := (i 0).isLt
  have hi1 : (i 1).val < 1024 := (i 1).isLt
  obtain ⟨t, ht⟩ := idx_onto ⟨(i 1).val / 128, by omega⟩
  have q0 : win0_6.index t (0 : Fin 2) = 0 := congrFun ht 0
  have q1 : win0_6.index t (1 : Fin 2) = (i 1).val / 128 := congrFun ht 1
  refine ⟨t, flush0_6 t, ?_⟩
  rw [mem_blk6]
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 128 ≤ (i 1).val ∧ (i 1).val < win0_6.index t (1 : Fin 2) * 128 + 128; omega

/-- THE OUTPUT ARRAY after the run. -/
theorem final6 (c : Dev nD) : (dats m 0 c).arrAt 6 cfg0.N = G6 m c :=
  (dats m 0 c).arrAt_eq_of_cover 6 (G6 m c) (fun t _ => flushed6_eq m c t) cover6

/-! ## The lines after the region -/

/-- The three lines after the region, as a function of the output array: the 1 × 1024 row viewed as 1024 numbers, summed
    from a zero initial value, divided by the word of 1024. -/
theorem tail_apply (A : Vec Ideal S1x1024 .f32) (i0 : S_.Idx) :
    Host.divf (F := Ideal) (Host.reduceAdd (F := Ideal) (shapeCast S1024 A shapeCasts_S1x1024_S1024)
      (constant (F := Ideal) S_ .f32 0x00000000#32) reducesTo_S1024_S_d0 h_S_) (constant (F := Ideal) S_ .f32 0x44800000#32) i0
      = Ideal.div (∑ b : Fin 1024, A (ix2 (0 : Fin 1) b)) count := by
  have hs : Host.reduceAdd (F := Ideal) (shapeCast S1024 A shapeCasts_S1x1024_S1024) (constant (F := Ideal) S_ .f32 0x00000000#32)
      reducesTo_S1024_S_d0 h_S_ i0 = ∑ b : Fin 1024, A (ix2 (0 : Fin 1) b) := by
    simp only [Host.reduceAdd, Ideal.hostReduceAdd_def]
    rw [Ideal.hostReduceAdd_total reducesTo_S1024_S_d0 (fun b => b.elim0), sum_idx1]
    show Ideal.ofBits .f32 0x00000000#32 + _ = _
    rw [Ideal.ofBits_zero_f32, zero_add]
    refine Finset.sum_congr rfl fun b _ => ?_
    exact shapeCast_apply A shapeCasts_S1x1024_S1024 (ix1 b) (ix2 (0 : Fin 1) b) (by
      rw [Shape.rowMajor_val_two, Shape.rowMajor_val_one]
      show 0 * 1024 + b.val = b.val
      omega)
  show FloatOps.hostDivf (F := Ideal) (Host.reduceAdd (F := Ideal) (shapeCast S1024 A shapeCasts_S1x1024_S1024)
      (constant (F := Ideal) S_ .f32 0x00000000#32) reducesTo_S1024_S_d0 h_S_ i0) (Ideal.ofBits .f32 0x44800000#32) = _
  rw [hs]
  rfl

/-! ## The six gathered arrays by coordinates, and the result -/

/-- The target rows' means as the region finds them. -/
abbrev KMT (c : Dev nD) : Fin 1024 → Fin 128 → EReal := fun b e => mtArr m c (ix2 b e)
/-- The target rows' variances. -/
abbrev KST (c : Dev nD) : Fin 1024 → Fin 128 → EReal := fun b e => stArr m c (ix2 b e)
/-- The positive contexts' means. -/
abbrev KMP (c : Dev nD) : Fin 1024 → Fin 5 → Fin 128 → EReal := fun b w e => mpArr m c (ix3 b w e)
/-- The positive contexts' variances. -/
abbrev KSP (c : Dev nD) : Fin 1024 → Fin 5 → Fin 128 → EReal := fun b w e => spArr m c (ix3 b w e)
/-- The negative contexts' means. -/
abbrev KMN (c : Dev nD) : Fin 1024 → Fin 5 → Fin 128 → EReal := fun b w e => mnArr m c (ix3 b w e)
/-- The negative contexts' variances. -/
abbrev KSN (c : Dev nD) : Fin 1024 → Fin 5 → Fin 128 → EReal := fun b w e => snArr m c (ix3 b w e)

/-- THE KERNEL'S RESULT: what the lines after the region leave in the result buffer is the mean loss of the six arrays
    the region staged. The region leaves the output array at `G6`; the lines after it read that array. -/
theorem result_eq (c : Dev nD) :
    Pipeline.afterTail₀ cfgs (dats m) 0 (V0 m) [hostOps1] c main_v49
      = fun _ => loss (KMT m c) (KST m c) (KMP m c) (KSP m c) (KMN m c) (KSN m c) := by
  have hA : Pipeline.withArrays (cfgs 0).spec c (V0 m c) (fun w => (dats m 0 c).arrAt w (cfgs 0).N)
      (Proc.devRef .tc main_v46) = G6 m c :=
    (Pipeline.withArrays_arr spec0 launch0.win.arr_inj c _ _ 6).trans (final6 m c)
  unfold Pipeline.afterTail₀
  show StableHlo.after hostOps1 _ (Proc.devRef .tc main_v49) = _
  after_results
  refine (congrArg (fun A : Vec Ideal S1x1024 .f32 => Host.divf (F := Ideal) (Host.reduceAdd (F := Ideal)
    (shapeCast S1024 A shapeCasts_S1x1024_S1024) (constant (F := Ideal) S_ .f32 0x00000000#32) reducesTo_S1024_S_d0 h_S_)
    (constant (F := Ideal) S_ .f32 0x44800000#32)) hA).trans ?_
  funext i0
  refine (tail_apply (G6 m c) i0).trans ?_
  rfl

/-- The run re-posted: the result buffer at the mean loss of the staged arrays, the arguments unchanged. -/
theorem run : θ_run defs (onTc (τ := τ) (main (F := Ideal))) ⟨m, fun _ => 0, ρ⟩ fun r => ∀ c : Dev nD,
      r.2.mem ((c.tc : Thread nD τ).loc main_v49) = (fun _ => loss (KMT m c) (KST m c) (KMP m c) (KSP m c) (KMN m c) (KSN m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v49 (Pipeline.mem_restRefs_of main_v49 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.KGather.lean ====
/-
  THE SIX ARRAYS THE REGION STAGES, READ AT AN INDEX. Before the region the kernel's host lines clip each index array into
  `[0, 99999]` (a signed maximum with a repeated 0, then a signed minimum with a repeated 99999; the target's 1024 × 1
  array first viewed as 1024 numbers), wrap it (`x + 100000` where `x < 0`), give it a trailing unit axis and gather
  rows of the two tables. Each staged array is therefore a row gather at those indices, and element `(b, …, e)` is the
  table at `(row, e)` with `row` the clipped, wrapped word read signed and clamped into `[0, 99999]`: for a non-negative
  index word `x` that is `min x 99999`, the row `Spec.rowOf` names.
-/
import proofs.«409841_j49211735277727_3_alg».proof.Proof.Gen.KernelIdeal.Frame
import proofs.«409841_j49211735277727_3_alg».proof.Proof.KernelValue
import proofs.«409841_j49211735277727_3_alg».proof.Proof.Spec
import proofs.«409841_j49211735277727_3_alg».proof.Proof.LibGatherRows
import proofs.«409841_j49211735277727_3_alg».proof.Proof.IndexWords
import Idealize.ShloMosaic.Lib.Pipeline.Value
import Idealize.ShloMosaic.Lib.StableHlo.Run
import Idealize.ShloMosaic.Lib.ValueIdx

set_option maxRecDepth 16384

noncomputable section

namespace Cert.KernelIdeal.KGather

open Cert.KernelIdeal Cert.KernelIdeal.Gen Cert.KernelIdeal.KValue Idealize.ShloMosaic Idealize.ShloMosaic.TcCoe
  Idealize.ShloMosaic.ValueIdx Idealize.SL.Sem Cert.Spec Cert.LibGatherRows Cert.IndexWords

/-! ## The clip and the wrap, as functions of an index array -/

/-- 1024 index words clipped into `[0, 99999]`. -/
def clip1 (x : IVec S1024 32) : IVec S1024 32 :=
  minsi (broadcastInDim S1024 ![] bcast_S_S1024 (constantI S_ 32 99999#32))
    (maxsi (broadcastInDim S1024 ![] bcast_S_S1024 (constantI S_ 32 0#32)) x)
/-- 1024 index words wrapped the way indexing wraps a negative number. -/
def wrap1 (z : IVec S1024 32) : IVec S1024 32 :=
  select (cmpi .slt z (broadcastInDim S1024 ![] bcast_S_S1024 (constantI S_ 32 0#32)))
    (addi z (broadcastInDim S1024 ![] bcast_S_S1024 (constantI S_ 32 100000#32))) z
/-- 1024 × 5 index words clipped into `[0, 99999]`. -/
def clip5 (x : IVec S1024x5 32) : IVec S1024x5 32 :=
  minsi (broadcastInDim S1024x5 ![] bcast_S_S1024x5 (constantI S_ 32 99999#32))
    (maxsi (broadcastInDim S1024x5 ![] bcast_S_S1024x5 (constantI S_ 32 0#32)) x)
/-- 1024 × 5 index words wrapped. -/
def wrap5 (z : IVec S1024x5 32) : IVec S1024x5 32 :=
  select (cmpi .slt z (broadcastInDim S1024x5 ![] bcast_S_S1024x5 (constantI S_ 32 0#32)))
    (addi z (broadcastInDim S1024x5 ![] bcast_S_S1024x5 (constantI S_ 32 100000#32))) z

/-- The row the gather reads for target `b`: the clipped, wrapped word under the unit axis, clamped. -/
theorem row1 (x : IVec S1024x1 32) (b : Fin 1024) (h : 0 ≤ (x (ix2 b (0 : Fin 1))).toInt) :
    min ((broadcastInDim S1024x1 ![0] bcast_S1024_S1024x1_0 (wrap1 (clip1 (shapeCast S1024 x shapeCasts_S1024x1_S1024))))
      (ix2 b (0 : Fin 1))).toInt.toNat (100000 - 1) = (rowOf (x (ix2 b (0 : Fin 1)))).val := by
  have hb : (broadcastInDim S1024x1 ![0] bcast_S1024_S1024x1_0 (wrap1 (clip1 (shapeCast S1024 x shapeCasts_S1024x1_S1024))))
      (ix2 b (0 : Fin 1)) = wrap1 (clip1 (shapeCast S1024 x shapeCasts_S1024x1_S1024)) (ix1 b) :=
    broadcastInDim_apply _ bcast_S1024_S1024x1_0 _ (ix2 b (0 : Fin 1)) (ix1 b) (fun a => match a with
      | ⟨0, _⟩ => by show b.val = if (1024 : Nat) = 1 then 0 else b.val; rw [if_neg (by decide)])
  have hx : shapeCast S1024 x shapeCasts_S1024x1_S1024 (ix1 b) = x (ix2 b (0 : Fin 1)) :=
    shapeCast_apply x shapeCasts_S1024x1_S1024 (ix1 b) (ix2 b (0 : Fin 1)) (by
      rw [Shape.rowMajor_val_two, Shape.rowMajor_val_one]
      show b.val * 1 + 0 = b.val
      omega)
  rw [hb]
  show min (Scalar.select (IntOp.cmpi .slt (IntOp.minsi 99999#32 (IntOp.maxsi 0#32 (shapeCast S1024 x shapeCasts_S1024x1_S1024 (ix1 b)))) 0#32)
      (IntOp.addi (IntOp.minsi 99999#32 (IntOp.maxsi 0#32 (shapeCast S1024 x shapeCasts_S1024x1_S1024 (ix1 b)))) 100000#32)
      (IntOp.minsi 99999#32 (IntOp.maxsi 0#32 (shapeCast S1024 x shapeCasts_S1024x1_S1024 (ix1 b))))).toInt.toNat (100000 - 1)
    = min (x (ix2 b (0 : Fin 1))).toNat 99999
  rw [hx]
  exact row_clip_wrap h

/-- The row the gather reads for context `(b, w)`. -/
theorem row5 (x : IVec S1024x5 32) (b : Fin 1024) (w : Fin 5) (h : 0 ≤ (x (ix2 b w)).toInt) :
    min ((broadcastInDim S1024x5x1 ![0, 1] bcast_S1024x5_S1024x5x1_0_1 (wrap5 (clip5 x)))
      (ix3 b w (0 : Fin 1))).toInt.toNat (100000 - 1) = (rowOf (x (ix2 b w))).val := by
  have hb : (broadcastInDim S1024x5x1 ![0, 1] bcast_S1024x5_S1024x5x1_0_1 (wrap5 (clip5 x))) (ix3 b w (0 : Fin 1))
      = wrap5 (clip5 x) (ix2 b w) :=
    broadcastInDim_apply _ bcast_S1024x5_S1024x5x1_0_1 _ (ix3 b w (0 : Fin 1)) (ix2 b w) (fun a => match a with
      | ⟨0, _⟩ => by show b.val = if (1024 : Nat) = 1 then 0 else b.val; rw [if_neg (by decide)]
      | ⟨1, _⟩ => by show w.val = if (5 : Nat) = 1 then 0 else w.val; rw [if_neg (by decide)])
  rw [hb]
  show min (Scalar.select (IntOp.cmpi .slt (IntOp.minsi 99999#32 (IntOp.maxsi 0#32 (x (ix2 b w)))) 0#32)
      (IntOp.addi (IntOp.minsi 99999#32 (IntOp.maxsi 0#32 (x (ix2 b w)))) 100000#32)
      (IntOp.minsi 99999#32 (IntOp.maxsi 0#32 (x (ix2 b w))))).toInt.toNat (100000 - 1)
    = min (x (ix2 b w)).toNat 99999
  exact row_clip_wrap h

variable (m : (ℓ : Loc nD τ sig) → Buf (Elt Ideal) ℓ)

/-! ## The staged arrays -/

set_option maxHeartbeats 8000000 in
/-- The staged array `mtArr` is the row gather from its table at the clipped, wrapped target indices. -/
theorem mtArr_eq (c : Dev nD) :
    mtArr m c = Host.gather gather_S100000x128_S1024x1_S1024x128_1_0_n_n_0_1_1128 (m ((c.tc : Thread nD τ).loc main_arg0))
      (broadcastInDim S1024x1 ![0] bcast_S1024_S1024x1_0 (wrap1 (clip1 (shapeCast S1024 (m ((c.tc : Thread nD τ).loc main_arg2)) shapeCasts_S1024x1_S1024)))) := by
  show (V m c main_v10 : S1024x128.Idx → EReal) = _
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- `mtArr` at `(b, e)`: its table at the row the target index word names. -/
theorem mtArr_at (c : Dev nD) (b : Fin 1024) (e : Fin 128) (h : 0 ≤ ((m ((c.tc : Thread nD τ).loc main_arg2)) (ix2 b (0 : Fin 1))).toInt) :
    mtArr m c (ix2 b e) = (m ((c.tc : Thread nD τ).loc main_arg0)) (ix2 (rowOf ((m ((c.tc : Thread nD τ).loc main_arg2)) (ix2 b (0 : Fin 1)))) e) := by
  rw [mtArr_eq]
  refine (gather_rows2_apply (N := 100000) (E := 128) (R := 1024) (by decide) Gen.gather_S100000x128_S1024x1_S1024x128_1_0_n_n_0_1_1128_wf
    (m ((c.tc : Thread nD τ).loc main_arg0)) _ b e).trans ?_
  refine congrArg (fun r => (m ((c.tc : Thread nD τ).loc main_arg0)) (ix2 r e)) (Fin.ext ?_)
  exact row1 (m ((c.tc : Thread nD τ).loc main_arg2)) b h

set_option maxHeartbeats 8000000 in
/-- The staged array `stArr` is the row gather from its table at the clipped, wrapped target indices. -/
theorem stArr_eq (c : Dev nD) :
    stArr m c = Host.gather gather_S100000x128_S1024x1_S1024x128_1_0_n_n_0_1_1128 (m ((c.tc : Thread nD τ).loc main_arg1))
      (broadcastInDim S1024x1 ![0] bcast_S1024_S1024x1_0 (wrap1 (clip1 (shapeCast S1024 (m ((c.tc : Thread nD τ).loc main_arg2)) shapeCasts_S1024x1_S1024)))) := by
  show (V m c main_v17 : S1024x128.Idx → EReal) = _
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- `stArr` at `(b, e)`: its table at the row the target index word names. -/
theorem stArr_at (c : Dev nD) (b : Fin 1024) (e : Fin 128) (h : 0 ≤ ((m ((c.tc : Thread nD τ).loc main_arg2)) (ix2 b (0 : Fin 1))).toInt) :
    stArr m c (ix2 b e) = (m ((c.tc : Thread nD τ).loc main_arg1)) (ix2 (rowOf ((m ((c.tc : Thread nD τ).loc main_arg2)) (ix2 b (0 : Fin 1)))) e) := by
  rw [stArr_eq]
  refine (gather_rows2_apply (N := 100000) (E := 128) (R := 1024) (by decide) Gen.gather_S100000x128_S1024x1_S1024x128_1_0_n_n_0_1_1128_wf
    (m ((c.tc : Thread nD τ).loc main_arg1)) _ b e).trans ?_
  refine congrArg (fun r => (m ((c.tc : Thread nD τ).loc main_arg1)) (ix2 r e)) (Fin.ext ?_)
  exact row1 (m ((c.tc : Thread nD τ).loc main_arg2)) b h

set_option maxHeartbeats 8000000 in
/-- The staged array `mpArr` is the row gather from its table at the clipped, wrapped context indices. -/
theorem mpArr_eq (c : Dev nD) :
    mpArr m c = Host.gather gather_S100000x128_S1024x5x1_S1024x5x128_2_0_n_n_0_2_1128 (m ((c.tc : Thread nD τ).loc main_arg0))
      (broadcastInDim S1024x5x1 ![0, 1] bcast_S1024x5_S1024x5x1_0_1 (wrap5 (clip5 (m ((c.tc : Thread nD τ).loc main_arg3))))) := by
  show (V m c main_v24 : S1024x5x128.Idx → EReal) = _
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- `mpArr` at `(b, w, e)`: its table at the row the context index word names. -/
theorem mpArr_at (c : Dev nD) (b : Fin 1024) (w : Fin 5) (e : Fin 128) (h : 0 ≤ ((m ((c.tc : Thread nD τ).loc main_arg3)) (ix2 b w)).toInt) :
    mpArr m c (ix3 b w e) = (m ((c.tc : Thread nD τ).loc main_arg0)) (ix2 (rowOf ((m ((c.tc : Thread nD τ).loc main_arg3)) (ix2 b w))) e) := by
  rw [mpArr_eq]
  refine (gather_rows3_apply (N := 100000) (E := 128) (R := 1024) (C := 5) (by decide) Gen.gather_S100000x128_S1024x5x1_S1024x5x128_2_0_n_n_0_2_1128_wf
    (m ((c.tc : Thread nD τ).loc main_arg0)) _ b w e).trans ?_
  refine congrArg (fun r => (m ((c.tc : Thread nD τ).loc main_arg0)) (ix2 r e)) (Fin.ext ?_)
  exact row5 (m ((c.tc : Thread nD τ).loc main_arg3)) b w h

set_option maxHeartbeats 8000000 in
/-- The staged array `spArr` is the row gather from its table at the clipped, wrapped context indices. -/
theorem spArr_eq (c : Dev nD) :
    spArr m c = Host.gather gather_S100000x128_S1024x5x1_S1024x5x128_2_0_n_n_0_2_1128 (m ((c.tc : Thread nD τ).loc main_arg1))
      (broadcastInDim S1024x5x1 ![0, 1] bcast_S1024x5_S1024x5x1_0_1 (wrap5 (clip5 (m ((c.tc : Thread nD τ).loc main_arg3))))) := by
  show (V m c main_v31 : S1024x5x128.Idx → EReal) = _
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- `spArr` at `(b, w, e)`: its table at the row the context index word names. -/
theorem spArr_at (c : Dev nD) (b : Fin 1024) (w : Fin 5) (e : Fin 128) (h : 0 ≤ ((m ((c.tc : Thread nD τ).loc main_arg3)) (ix2 b w)).toInt) :
    spArr m c (ix3 b w e) = (m ((c.tc : Thread nD τ).loc main_arg1)) (ix2 (rowOf ((m ((c.tc : Thread nD τ).loc main_arg3)) (ix2 b w))) e) := by
  rw [spArr_eq]
  refine (gather_rows3_apply (N := 100000) (E := 128) (R := 1024) (C := 5) (by decide) Gen.gather_S100000x128_S1024x5x1_S1024x5x128_2_0_n_n_0_2_1128_wf
    (m ((c.tc : Thread nD τ).loc main_arg1)) _ b w e).trans ?_
  refine congrArg (fun r => (m ((c.tc : Thread nD τ).loc main_arg1)) (ix2 r e)) (Fin.ext ?_)
  exact row5 (m ((c.tc : Thread nD τ).loc main_arg3)) b w h

set_option maxHeartbeats 8000000 in
/-- The staged array `mnArr` is the row gather from its table at the clipped, wrapped context indices. -/
theorem mnArr_eq (c : Dev nD) :
    mnArr m c = Host.gather gather_S100000x128_S1024x5x1_S1024x5x128_2_0_n_n_0_2_1128 (m ((c.tc : Thread nD τ).loc main_arg0))
      (broadcastInDim S1024x5x1 ![0, 1] bcast_S1024x5_S1024x5x1_0_1 (wrap5 (clip5 (m ((c.tc : Thread nD τ).loc main_arg4))))) := by
  show (V m c main_v38 : S1024x5x128.Idx → EReal) = _
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- `mnArr` at `(b, w, e)`: its table at the row the context index word names. -/
theorem mnArr_at (c : Dev nD) (b : Fin 1024) (w : Fin 5) (e : Fin 128) (h : 0 ≤ ((m ((c.tc : Thread nD τ).loc main_arg4)) (ix2 b w)).toInt) :
    mnArr m c (ix3 b w e) = (m ((c.tc : Thread nD τ).loc main_arg0)) (ix2 (rowOf ((m ((c.tc : Thread nD τ).loc main_arg4)) (ix2 b w))) e) := by
  rw [mnArr_eq]
  refine (gather_rows3_apply (N := 100000) (E := 128) (R := 1024) (C := 5) (by decide) Gen.gather_S100000x128_S1024x5x1_S1024x5x128_2_0_n_n_0_2_1128_wf
    (m ((c.tc : Thread nD τ).loc main_arg0)) _ b w e).trans ?_
  refine congrArg (fun r => (m ((c.tc : Thread nD τ).loc main_arg0)) (ix2 r e)) (Fin.ext ?_)
  exact row5 (m ((c.tc : Thread nD τ).loc main_arg4)) b w h

set_option maxHeartbeats 8000000 in
/-- The staged array `snArr` is the row gather from its table at the clipped, wrapped context indices. -/
theorem snArr_eq (c : Dev nD) :
    snArr m c = Host.gather gather_S100000x128_S1024x5x1_S1024x5x128_2_0_n_n_0_2_1128 (m ((c.tc : Thread nD τ).loc main_arg1))
      (broadcastInDim S1024x5x1 ![0, 1] bcast_S1024x5_S1024x5x1_0_1 (wrap5 (clip5 (m ((c.tc : Thread nD τ).loc main_arg4))))) := by
  show (V m c main_v45 : S1024x5x128.Idx → EReal) = _
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- `snArr` at `(b, w, e)`: its table at the row the context index word names. -/
theorem snArr_at (c : Dev nD) (b : Fin 1024) (w : Fin 5) (e : Fin 128) (h : 0 ≤ ((m ((c.tc : Thread nD τ).loc main_arg4)) (ix2 b w)).toInt) :
    snArr m c (ix3 b w e) = (m ((c.tc : Thread nD τ).loc main_arg1)) (ix2 (rowOf ((m ((c.tc : Thread nD τ).loc main_arg4)) (ix2 b w))) e) := by
  rw [snArr_eq]
  refine (gather_rows3_apply (N := 100000) (E := 128) (R := 1024) (C := 5) (by decide) Gen.gather_S100000x128_S1024x5x1_S1024x5x128_2_0_n_n_0_2_1128_wf
    (m ((c.tc : Thread nD τ).loc main_arg1)) _ b w e).trans ?_
  refine congrArg (fun r => (m ((c.tc : Thread nD τ).loc main_arg1)) (ix2 r e)) (Fin.ext ?_)
  exact row5 (m ((c.tc : Thread nD τ).loc main_arg4)) b w h

end Cert.KernelIdeal.KGather

end
-- ==== Proof.Claims.lean ====
/-
  THE FIVE CLAIMS. The kernel's two frames are their generated frame certificates. The reference has no kernel: its
  frame is its generated run with the result dropped. Nothing was rewritten in the kernel's idealization, so `preserves`
  is `True`.
  THE VALUE CLAIM. Both programs gather a target row and five positive and five negative context rows for each of 1024
  examples from the two tables, and then apply, in the same order, the operations `Spec.loss` writes: the result of
  each is `Spec.loss` of its own six gathered arrays (`KValue.run` for the kernel, read off its frame run; `RefValue.result_eq`
  for the reference, read off its run one operation at a time). It remains that the gathered arrays agree, and that is
  where the precondition is used. The reference wraps an index word the way array indexing wraps a negative number and
  gathers; the kernel first clips the word into `[0, 99999]`, then wraps and gathers; the gather itself clamps its
  start into `[0, 99999]`. On a word that is non-negative as a signed integer — which the precondition states of every
  entry of the three index arrays — both read row `min x 99999` (`IndexWords.row_wrap`, `row_clip_wrap`). On a word in
  `[-99999, -1]` they would not: the wrap reads row `x + 100000`, the clip row 0.
-/
import proofs.«409841_j49211735277727_3_alg».proof.Defs
import proofs.«409841_j49211735277727_3_alg».proof.Proof.Gen.Kernel
import proofs.«409841_j49211735277727_3_alg».proof.Proof.Gen.Kernel.Frame
import proofs.«409841_j49211735277727_3_alg».proof.Proof.Gen.KernelIdeal
import proofs.«409841_j49211735277727_3_alg».proof.Proof.Gen.KernelIdeal.Frame
import proofs.«409841_j49211735277727_3_alg».proof.Proof.Gen.ReferenceIdeal
import proofs.«409841_j49211735277727_3_alg».proof.Proof.Gen.ReferenceIdeal.Run
import proofs.«409841_j49211735277727_3_alg».proof.Proof.Gen.ReferenceIdeal.Read
import proofs.«409841_j49211735277727_3_alg».proof.Proof.Gen.Pre_finite_inputs
import proofs.«409841_j49211735277727_3_alg».proof.Proof.Spec
import proofs.«409841_j49211735277727_3_alg».proof.Proof.PreIndex
import proofs.«409841_j49211735277727_3_alg».proof.Proof.RefValue
import proofs.«409841_j49211735277727_3_alg».proof.Proof.RefGather
import proofs.«409841_j49211735277727_3_alg».proof.Proof.KernelValue
import proofs.«409841_j49211735277727_3_alg».proof.Proof.KGather

noncomputable section

namespace Cert.Proof.Claims

open Idealize.ShloMosaic Idealize.ShloMosaic.TcCoe Idealize.SL.Sem Idealize.ShloMosaic.ValueIdx Cert.Spec

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments and satisfy the precondition both programs end with the mean loss of
    the same six gathered arrays. -/
theorem algebraic : Cert.algebraic_KernelIdeal_ReferenceIdeal := by
  intro m g m' g' hpre hagree
  refine ⟨fun c => fun _ => loss (Cert.KernelIdeal.KValue.KMT m c) (Cert.KernelIdeal.KValue.KST m c)
    (Cert.KernelIdeal.KValue.KMP m c) (Cert.KernelIdeal.KValue.KSP m c) (Cert.KernelIdeal.KValue.KMN m c)
    (Cert.KernelIdeal.KValue.KSN m c), Cert.KernelIdeal.KValue.run m g, ?_⟩
  refine (θ_run Cert.ReferenceIdeal.defs _ _).mono (fun _ h c => ⟨(h c).1.trans ?_, (h c).2⟩)
    (Cert.ReferenceIdeal.Value.run (F := Ideal) m' g')
  obtain ⟨h0, h1, h2, h3, h4⟩ := hagree c
  obtain ⟨n2, n3, n4⟩ := Cert.PreIndex.nonneg_of_pre _ _ _ _ _ (hpre c)
  rw [Cert.ReferenceIdeal.Read.val_main_v83_eq, h0, h1, h2, h3, h4]
  funext i
  rw [Cert.ReferenceIdeal.RefValue.result_eq]
  symm
  refine loss_congr ?_ ?_ ?_ ?_ ?_ ?_
  · funext b e
    exact (Cert.KernelIdeal.KGather.mtArr_at m c b e (n2 _)).trans
      (Cert.ReferenceIdeal.RefGather.ref_v6_at _ _ b e (n2 _)).symm
  · funext b e
    exact (Cert.KernelIdeal.KGather.stArr_at m c b e (n2 _)).trans
      (Cert.ReferenceIdeal.RefGather.ref_v13_at _ _ b e (n2 _)).symm
  · funext b w e
    exact (Cert.KernelIdeal.KGather.mpArr_at m c b w e (n3 _)).trans
      (Cert.ReferenceIdeal.RefGather.ref_v20_at _ _ b w e (n3 _)).symm
  · funext b w e
    exact (Cert.KernelIdeal.KGather.spArr_at m c b w e (n3 _)).trans
      (Cert.ReferenceIdeal.RefGather.ref_v27_at _ _ b w e (n3 _)).symm
  · funext b w e
    exact (Cert.KernelIdeal.KGather.mnArr_at m c b w e (n4 _)).trans
      (Cert.ReferenceIdeal.RefGather.ref_v34_at _ _ b w e (n4 _)).symm
  · funext b w e
    exact (Cert.KernelIdeal.KGather.snArr_at m c b w e (n4 _)).trans
      (Cert.ReferenceIdeal.RefGather.ref_v41_at _ _ b w e (n4 _)).symm

end Cert.Proof.Claims

end
-- ==== Proof.lean ====
/- `Cert.Claim`: the Pallas kernel `_kl_hinge_kernel` with the host lines around it, and the jnp reference, compute the same
   mean hinge loss over 1024 examples of a diagonal-Gaussian embedding.
   For each example both gather a target row of the mean and variance tables (100000 × 128) and five positive and five
   negative context rows, form for each context the divergence
       ½ Σ_lanes [ s_t / s_c + (m_c − m_t)² / s_c − 1 + log s_c − log s_t ],
   take `max 0 (margin − kl_pos + kl_neg)`, sum the five, and average the 1024. The kernel does the dense part in a region
   of 8 grid points of 128 examples each and the final sum and division on the host; the reference does everything on the
   host. Over the extended reals the two apply the same operations to the same entries in the same order, so once the
   gathered rows are known to agree no law of arithmetic is needed, and in particular nothing about finiteness or about
   the sign of a variance.
   The gathered rows agree exactly where the index words are non-negative: the reference wraps a negative index to
   `x + 100000`, the kernel clips it to 0 first, and from 0 upward both end at row `min x 99999`. The precondition states
   `x ≥ 0` of every entry of the three index arrays, and the proof uses that and nothing else of it.
   The modules: Spec (the common value), LibGatherRows (a row gather read at an index), IndexWords (the row a word
   names on either road), PreIndex (the precondition read back), KernelBody (what the body stores, at a column),
   KernelValue (blocks to the array, the lines after the region, the kernel's run), KGather and RefGather (the six
   gathered arrays of each program at an index), RefValue (the reference's result), Claims (the five claims). -/
import proofs.«409841_j49211735277727_3_alg».proof.Defs
import proofs.«409841_j49211735277727_3_alg».proof.Proof.Gen.Kernel
import proofs.«409841_j49211735277727_3_alg».proof.Proof.Gen.Kernel.Skeleton
import proofs.«409841_j49211735277727_3_alg».proof.Proof.Gen.Kernel.Launch
import proofs.«409841_j49211735277727_3_alg».proof.Proof.Gen.Kernel.Points
import proofs.«409841_j49211735277727_3_alg».proof.Proof.Gen.Kernel.Frame
import proofs.«409841_j49211735277727_3_alg».proof.Proof.Gen.KernelIdeal
import proofs.«409841_j49211735277727_3_alg».proof.Proof.Gen.KernelIdeal.Skeleton
import proofs.«409841_j49211735277727_3_alg».proof.Proof.Gen.KernelIdeal.Launch
import proofs.«409841_j49211735277727_3_alg».proof.Proof.Gen.KernelIdeal.Points
import proofs.«409841_j49211735277727_3_alg».proof.Proof.Gen.KernelIdeal.Frame
import proofs.«409841_j49211735277727_3_alg».proof.Proof.Gen.ReferenceIdeal
import proofs.«409841_j49211735277727_3_alg».proof.Proof.Gen.ReferenceIdeal.Run
import proofs.«409841_j49211735277727_3_alg».proof.Proof.Gen.ReferenceIdeal.Read
import proofs.«409841_j49211735277727_3_alg».proof.Proof.Gen.Pre_finite_inputs
import proofs.«409841_j49211735277727_3_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
